-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S128x4096 : Shape := ⟨2, ![128, 4096]⟩
abbrev S128x128x32 : Shape := ⟨3, ![128, 128, 32]⟩
abbrev S128x128 : Shape := ⟨2, ![128, 128]⟩
abbrev S128x128x1 : Shape := ⟨3, ![128, 128, 1]⟩
abbrev S1024x2048 : Shape := ⟨2, ![1024, 2048]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S4096x4096, .bf16⟩
  | .hbm, ⟨5, _⟩ => ⟨S8192x4096, .f32⟩
  | .hbm, ⟨6, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .bf16⟩
  | .local _ .vmem, ⟨3, _⟩ => ⟨S128x4096, .bf16⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![8, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  shapeCasts_S4x2048x4096_S8192x4096 : S4x2048x4096.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S128x4096_S128x128x32 : S128x4096.ShapeCasts S128x128x32
  reduces_S128x128x32_S128x128 : S128x128x32.Reduces [2] S128x128
  shapeCasts_S128x128_S128x128x1 : S128x128.ShapeCasts S128x128x1
  broadcasts_S128x128x1_S128x128x32 : S128x128x1.Broadcasts S128x128x32
  shapeCasts_S128x128x32_S128x4096 : S128x128x32.ShapeCasts S128x4096
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S8192x4096_S4x2048x4096 : S8192x4096.ShapeCasts S4x2048x4096
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .bf16 = 32 ∨ (Rect.block (s := S8192x4096) S128x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S4096x4096.size a
  hwx1_1 : ∀ i : grid1.Coords, EltTy.bits .bf16 = 32 ∨ (Rect.block (s := S4096x4096) S128x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x4096.size a
  hwx2_0 : ∀ i : grid2.Coords, EltTy.bits .bf16 = 32 ∨ (Rect.block (s := S8192x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S4096x4096.size a
  hwx2_1 : ∀ i : grid2.Coords, EltTy.bits .bf16 = 32 ∨ (Rect.block (s := S4096x4096) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x4096.size a
  hwx2_2 : ∀ i : grid2.Coords, EltTy.bits .f32 = 32 ∨ (Rect.block (s := S8192x4096) S1024x1024.size (cc2_transform_2 i) (hinb2_2 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8192x4096 : Shape := ⟨2, ![8192, 4096]⟩
abbrev S8192x128x32 : Shape := ⟨3, ![8192, 128, 32]⟩
abbrev S_ : Shape := ⟨0, ![]⟩
abbrev S8192x128 : Shape := ⟨2, ![8192, 128]⟩
abbrev S8192x128x1 : Shape := ⟨3, ![8192, 128, 1]⟩
abbrev S4096x128x32 : Shape := ⟨3, ![4096, 128, 32]⟩
abbrev S4096x128 : Shape := ⟨2, ![4096, 128]⟩
abbrev S4096x128x1 : Shape := ⟨3, ![4096, 128, 1]⟩

abbrev nBuf : Space → Nat
  | .hbm => 175
  | .vmem => 0
  | .smem => 0
  | _ => 0

abbrev hbmTy0_0 (i : Nat) : BufTy := match i % 128 with
  | 0 => ⟨S4x2048x4096, .f32⟩
  | 1 => ⟨S4096x4096, .f32⟩
  | 2 => ⟨S8192x4096, .f32⟩
  | 3 => ⟨S8192x128x32, .f32⟩
  | 4 => ⟨S8192x128x32, .f32⟩
  | 5 => ⟨S_, .f32⟩
  | 6 => ⟨S8192x128, .f32⟩
  | 7 => ⟨S_, .f32⟩
  | 8 => ⟨S8192x128, .f32⟩
  | 9 => ⟨S8192x128, .f32⟩
  | 10 => ⟨S_, .f32⟩
  | 11 => ⟨S8192x128, .f32⟩
  | 12 => ⟨S8192x128, .f32⟩
  | 13 => ⟨S_, .f32⟩
  | 14 => ⟨S8192x128, .f32⟩
  | 15 => ⟨S8192x128, .f32⟩
  | 16 => ⟨S8192x128x1, .f32⟩
  | 17 => ⟨S8192x128x32, .f32⟩
  | 18 => ⟨S8192x128x32, .f32⟩
  | 19 => ⟨S_, .f32⟩
  | 20 => ⟨S_, .f32⟩
  | 21 => ⟨S_, .f32⟩
  | 22 => ⟨S8192x128x32, .f32⟩
  | 23 => ⟨S8192x128x32, .f32⟩
  | 24 => ⟨S_, .f32⟩
  | 25 => ⟨S8192x128x32, .f32⟩
  | 26 => ⟨S8192x128x32, .f32⟩
  | 27 => ⟨S_, .f32⟩
  | 28 => ⟨S8192x128x32, .f32⟩
  | 29 => ⟨S8192x128x32, .i1⟩
  | 30 => ⟨S_, .f32⟩
  | 31 => ⟨S_, .f32⟩
  | 32 => ⟨S8192x128x32, .f32⟩
  | 33 => ⟨S8192x128x32, .f32⟩
  | 34 => ⟨S8192x128x32, .f32⟩
  | 35 => ⟨S8192x128x32, .f32⟩
  | 36 => ⟨S_, .f32⟩
  | 37 => ⟨S8192x128x32, .f32⟩
  | 38 => ⟨S8192x128x32, .i1⟩
  | 39 => ⟨S_, .f32⟩
  | 40 => ⟨S8192x128x32, .f32⟩
  | 41 => ⟨S8192x128x32, .i1⟩
  | 42 => ⟨S_, .f32⟩
  | 43 => ⟨S8192x128x32, .f32⟩
  | 44 => ⟨S8192x128x32, .i1⟩
  | 45 => ⟨S_, .f32⟩
  | 46 => ⟨S8192x128x32, .f32⟩
  | 47 => ⟨S8192x128x32, .i1⟩
  | 48 => ⟨S_, .f32⟩
  | 49 => ⟨S8192x128x32, .f32⟩
  | 50 => ⟨S8192x128x32, .i1⟩
  | 51 => ⟨S_, .f32⟩
  | 52 => ⟨S8192x128x32, .f32⟩
  | 53 => ⟨S8192x128x32, .i1⟩
  | 54 => ⟨S_, .f32⟩
  | 55 => ⟨S8192x128x32, .f32⟩
  | 56 => ⟨S8192x128x32, .i1⟩
  | 57 => ⟨S_, .f32⟩
  | 58 => ⟨S_, .f32⟩
  | 59 => ⟨S8192x128x32, .f32⟩
  | 60 => ⟨S8192x128x32, .f32⟩
  | 61 => ⟨S8192x128x32, .f32⟩
  | 62 => ⟨S_, .f32⟩
  | 63 => ⟨S8192x128x32, .f32⟩
  | 64 => ⟨S8192x128x32, .f32⟩
  | 65 => ⟨S_, .f32⟩
  | 66 => ⟨S8192x128x32, .f32⟩
  | 67 => ⟨S8192x128x32, .f32⟩
  | 68 => ⟨S_, .f32⟩
  | 69 => ⟨S8192x128x32, .f32⟩
  | 70 => ⟨S8192x128x32, .f32⟩
  | 71 => ⟨S_, .f32⟩
  | 72 => ⟨S8192x128x32, .f32⟩
  | 73 => ⟨S8192x128x32, .f32⟩
  | 74 => ⟨S_, .f32⟩
  | 75 => ⟨S8192x128x32, .f32⟩
  | 76 => ⟨S8192x128x32, .f32⟩
  | 77 => ⟨S_, .f32⟩
  | 78 => ⟨S8192x128x32, .f32⟩
  | 79 => ⟨S8192x128x32, .f32⟩
  | 80 => ⟨S8192x128x32, .f32⟩
  | 81 => ⟨S8192x4096, .f32⟩
  | 82 => ⟨S8192x128x32, .f32⟩
  | 83 => ⟨S8192x128x1, .f32⟩
  | 84 => ⟨S8192x128x32, .f32⟩
  | 85 => ⟨S8192x128x32, .f32⟩
  | 86 => ⟨S8192x128x32, .f32⟩
  | 87 => ⟨S8192x4096, .f32⟩
  | 88 => ⟨S4096x128x32, .f32⟩
  | 89 => ⟨S4096x128x32, .f32⟩
  | 90 => ⟨S_, .f32⟩
  | 91 => ⟨S4096x128, .f32⟩
  | 92 => ⟨S_, .f32⟩
  | 93 => ⟨S4096x128, .f32⟩
  | 94 => ⟨S4096x128, .f32⟩
  | 95 => ⟨S_, .f32⟩
  | 96 => ⟨S4096x128, .f32⟩
  | 97 => ⟨S4096x128, .f32⟩
  | 98 => ⟨S_, .f32⟩
  | 99 => ⟨S4096x128, .f32⟩
  | 100 => ⟨S4096x128, .f32⟩
  | 101 => ⟨S4096x128x1, .f32⟩
  | 102 => ⟨S4096x128x32, .f32⟩
  | 103 => ⟨S4096x128x32, .f32⟩
  | 104 => ⟨S_, .f32⟩
  | 105 => ⟨S_, .f32⟩
  | 106 => ⟨S_, .f32⟩
  | 107 => ⟨S4096x128x32, .f32⟩
  | 108 => ⟨S4096x128x32, .f32⟩
  | 109 => ⟨S_, .f32⟩
  | 110 => ⟨S4096x128x32, .f32⟩
  | 111 => ⟨S4096x128x32, .f32⟩
  | 112 => ⟨S_, .f32⟩
  | 113 => ⟨S4096x128x32, .f32⟩
  | 114 => ⟨S4096x128x32, .i1⟩
  | 115 => ⟨S_, .f32⟩
  | 116 => ⟨S_, .f32⟩
  | 117 => ⟨S4096x128x32, .f32⟩
  | 118 => ⟨S4096x128x32, .f32⟩
  | 119 => ⟨S4096x128x32, .f32⟩
  | 120 => ⟨S4096x128x32, .f32⟩
  | 121 => ⟨S_, .f32⟩
  | 122 => ⟨S4096x128x32, .f32⟩
  | 123 => ⟨S4096x128x32, .i1⟩
  | 124 => ⟨S_, .f32⟩
  | 125 => ⟨S4096x128x32, .f32⟩
  | 126 => ⟨S4096x128x32, .i1⟩
  | 127 => ⟨S_, .f32⟩
  | _ => ⟨S4x2048x4096, .f32⟩

abbrev hbmTy0_1 (i : Nat) : BufTy := match i % 128 with
  | 0 => ⟨S4096x128x32, .f32⟩
  | 1 => ⟨S4096x128x32, .i1⟩
  | 2 => ⟨S_, .f32⟩
  | 3 => ⟨S4096x128x32, .f32⟩
  | 4 => ⟨S4096x128x32, .i1⟩
  | 5 => ⟨S_, .f32⟩
  | 6 => ⟨S4096x128x32, .f32⟩
  | 7 => ⟨S4096x128x32, .i1⟩
  | 8 => ⟨S_, .f32⟩
  | 9 => ⟨S4096x128x32, .f32⟩
  | 10 => ⟨S4096x128x32, .i1⟩
  | 11 => ⟨S_, .f32⟩
  | 12 => ⟨S4096x128x32, .f32⟩
  | 13 => ⟨S4096x128x32, .i1⟩
  | 14 => ⟨S_, .f32⟩
  | 15 => ⟨S_, .f32⟩
  | 16 => ⟨S4096x128x32, .f32⟩
  | 17 => ⟨S4096x128x32, .f32⟩
  | 18 => ⟨S4096x128x32, .f32⟩
  | 19 => ⟨S_, .f32⟩
  | 20 => ⟨S4096x128x32, .f32⟩
  | 21 => ⟨S4096x128x32, .f32⟩
  | 22 => ⟨S_, .f32⟩
  | 23 => ⟨S4096x128x32, .f32⟩
  | 24 => ⟨S4096x128x32, .f32⟩
  | 25 => ⟨S_, .f32⟩
  | 26 => ⟨S4096x128x32, .f32⟩
  | 27 => ⟨S4096x128x32, .f32⟩
  | 28 => ⟨S_, .f32⟩
  | 29 => ⟨S4096x128x32, .f32⟩
  | 30 => ⟨S4096x128x32, .f32⟩
  | 31 => ⟨S_, .f32⟩
  | 32 => ⟨S4096x128x32, .f32⟩
  | 33 => ⟨S4096x128x32, .f32⟩
  | 34 => ⟨S_, .f32⟩
  | 35 => ⟨S4096x128x32, .f32⟩
  | 36 => ⟨S4096x128x32, .f32⟩
  | 37 => ⟨S4096x128x32, .f32⟩
  | 38 => ⟨S4096x4096, .f32⟩
  | 39 => ⟨S4096x128x32, .f32⟩
  | 40 => ⟨S4096x128x1, .f32⟩
  | 41 => ⟨S4096x128x32, .f32⟩
  | 42 => ⟨S4096x128x32, .f32⟩
  | 43 => ⟨S4096x128x32, .f32⟩
  | 44 => ⟨S4096x4096, .f32⟩
  | 45 => ⟨S8192x4096, .f32⟩
  | 46 => ⟨S4x2048x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_cst_7 : Ref sig .tc := ⟨.hbm, 31, rfl⟩
abbrev main_call1_v0 : Ref sig .tc := ⟨.hbm, 32, rfl⟩
abbrev main_call1_v1 : Ref sig .tc := ⟨.hbm, 33, rfl⟩
abbrev main_v16 : Ref sig .tc := ⟨.hbm, 34, rfl⟩
abbrev main_v17 : Ref sig .tc := ⟨.hbm, 35, rfl⟩
abbrev main_cst_8 : Ref sig .tc := ⟨.hbm, 36, rfl⟩
abbrev main_v18 : Ref sig .tc := ⟨.hbm, 37, rfl⟩
abbrev main_v19 : Ref sig .tc := ⟨.hbm, 38, rfl⟩
abbrev main_cst_9 : Ref sig .tc := ⟨.hbm, 39, rfl⟩
abbrev main_v20 : Ref sig .tc := ⟨.hbm, 40, rfl⟩
abbrev main_v21 : Ref sig .tc := ⟨.hbm, 41, rfl⟩
abbrev main_cst_10 : Ref sig .tc := ⟨.hbm, 42, rfl⟩
abbrev main_v22 : Ref sig .tc := ⟨.hbm, 43, rfl⟩
abbrev main_v23 : Ref sig .tc := ⟨.hbm, 44, rfl⟩
abbrev main_cst_11 : Ref sig .tc := ⟨.hbm, 45, rfl⟩
abbrev main_v24 : Ref sig .tc := ⟨.hbm, 46, rfl⟩
abbrev main_v25 : Ref sig .tc := ⟨.hbm, 47, rfl⟩
abbrev main_cst_12 : Ref sig .tc := ⟨.hbm, 48, rfl⟩
abbrev main_v26 : Ref sig .tc := ⟨.hbm, 49, rfl⟩
abbrev main_v27 : Ref sig .tc := ⟨.hbm, 50, rfl⟩
abbrev main_cst_13 : Ref sig .tc := ⟨.hbm, 51, rfl⟩
abbrev main_v28 : Ref sig .tc := ⟨.hbm, 52, rfl⟩
abbrev main_v29 : Ref sig .tc := ⟨.hbm, 53, rfl⟩
abbrev main_cst_14 : Ref sig .tc := ⟨.hbm, 54, rfl⟩
abbrev main_v30 : Ref sig .tc := ⟨.hbm, 55, rfl⟩
abbrev main_v31 : Ref sig .tc := ⟨.hbm, 56, rfl⟩
abbrev main_cst_15 : Ref sig .tc := ⟨.hbm, 57, rfl⟩
abbrev main_cst_16 : Ref sig .tc := ⟨.hbm, 58, rfl⟩
abbrev main_call2_v0 : Ref sig .tc := ⟨.hbm, 59, rfl⟩
abbrev main_call2_v1 : Ref sig .tc := ⟨.hbm, 60, rfl⟩
abbrev main_v32 : Ref sig .tc := ⟨.hbm, 61, rfl⟩
abbrev main_cst_17 : Ref sig .tc := ⟨.hbm, 62, rfl⟩
abbrev main_call3_v0 : Ref sig .tc := ⟨.hbm, 63, rfl⟩
abbrev main_v33 : Ref sig .tc := ⟨.hbm, 64, rfl⟩
abbrev main_cst_18 : Ref sig .tc := ⟨.hbm, 65, rfl⟩
abbrev main_call4_v0 : Ref sig .tc := ⟨.hbm, 66, rfl⟩
abbrev main_v34 : Ref sig .tc := ⟨.hbm, 67, rfl⟩
abbrev main_cst_19 : Ref sig .tc := ⟨.hbm, 68, rfl⟩
abbrev main_call5_v0 : Ref sig .tc := ⟨.hbm, 69, rfl⟩
abbrev main_v35 : Ref sig .tc := ⟨.hbm, 70, rfl⟩
abbrev main_cst_20 : Ref sig .tc := ⟨.hbm, 71, rfl⟩
abbrev main_call6_v0 : Ref sig .tc := ⟨.hbm, 72, rfl⟩
abbrev main_v36 : Ref sig .tc := ⟨.hbm, 73, rfl⟩
abbrev main_cst_21 : Ref sig .tc := ⟨.hbm, 74, rfl⟩
abbrev main_call7_v0 : Ref sig .tc := ⟨.hbm, 75, rfl⟩
abbrev main_v37 : Ref sig .tc := ⟨.hbm, 76, rfl⟩
abbrev main_cst_22 : Ref sig .tc := ⟨.hbm, 77, rfl⟩
abbrev main_call8_v0 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_23 : Ref sig .tc := ⟨.hbm, 90, rfl⟩
abbrev main_v49 : Ref sig .tc := ⟨.hbm, 91, rfl⟩
abbrev main_cst_24 : Ref sig .tc := ⟨.hbm, 92, rfl⟩
abbrev main_v50 : Ref sig .tc := ⟨.hbm, 93, rfl⟩
abbrev main_v51 : Ref sig .tc := ⟨.hbm, 94, rfl⟩
abbrev main_cst_25 : Ref sig .tc := ⟨.hbm, 95, rfl⟩
abbrev main_v52 : Ref sig .tc := ⟨.hbm, 96, rfl⟩
abbrev main_v53 : Ref sig .tc := ⟨.hbm, 97, rfl⟩
abbrev main_cst_26 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_27 : Ref sig .tc := ⟨.hbm, 104, rfl⟩
abbrev main_cst_28 : Ref sig .tc := ⟨.hbm, 105, rfl⟩
abbrev main_call9_v0 : Ref sig .tc := ⟨.hbm, 106, rfl⟩
abbrev main_call9_v1 : Ref sig .tc := ⟨.hbm, 107, rfl⟩
abbrev main_call9_v2 : Ref sig .tc := ⟨.hbm, 108, rfl⟩
abbrev main_call9_v3 : Ref sig .tc := ⟨.hbm, 109, rfl⟩
abbrev main_call9_v4 : Ref sig .tc := ⟨.hbm, 110, rfl⟩
abbrev main_v59 : Ref sig .tc := ⟨.hbm, 111, rfl⟩
abbrev main_cst_29 : Ref sig .tc := ⟨.hbm, 112, rfl⟩
abbrev main_v60 : Ref sig .tc := ⟨.hbm, 113, rfl⟩
abbrev main_v61 : Ref sig .tc := ⟨.hbm, 114, rfl⟩
abbrev main_cst_30 : Ref sig .tc := ⟨.hbm, 115, rfl⟩
abbrev main_cst_31 : Ref sig .tc := ⟨.hbm, 116, rfl⟩
abbrev main_call10_v0 : Ref sig .tc := ⟨.hbm, 117, rfl⟩
abbrev main_call10_v1 : Ref sig .tc := ⟨.hbm, 118, rfl⟩
abbrev main_v62 : Ref sig .tc := ⟨.hbm, 119, rfl⟩
abbrev main_v63 : Ref sig .tc := ⟨.hbm, 120, rfl⟩
abbrev main_cst_32 : Ref sig .tc := ⟨.hbm, 121, rfl⟩
abbrev main_v64 : Ref sig .tc := ⟨.hbm, 122, rfl⟩
abbrev main_v65 : Ref sig .tc := ⟨.hbm, 123, rfl⟩
abbrev main_cst_33 : Ref sig .tc := ⟨.hbm, 124, rfl⟩
abbrev main_v66 : Ref sig .tc := ⟨.hbm, 125, rfl⟩
abbrev main_v67 : Ref sig .tc := ⟨.hbm, 126, rfl⟩
abbrev main_cst_34 : Ref sig .tc := ⟨.hbm, 127, rfl⟩
abbrev main_v68 : Ref sig .tc := ⟨.hbm, 128, rfl⟩
abbrev main_v69 : Ref sig .tc := ⟨.hbm, 129, rfl⟩
abbrev main_cst_35 : Ref sig .tc := ⟨.hbm, 130, rfl⟩
abbrev main_v70 : Ref sig .tc := ⟨.hbm, 131, rfl⟩
abbrev main_v71 : Ref sig .tc := ⟨.hbm, 132, rfl⟩
abbrev main_cst_36 : Ref sig .tc := ⟨.hbm, 133, rfl⟩
abbrev main_v72 : Ref sig .tc := ⟨.hbm, 134, rfl⟩
abbrev main_v73 : Ref sig .tc := ⟨.hbm, 135, rfl⟩
abbrev main_cst_37 : Ref sig .tc := ⟨.hbm, 136, rfl⟩
abbrev main_v74 : Ref sig .tc := ⟨.hbm, 137, rfl⟩
abbrev main_v75 : Ref sig .tc := ⟨.hbm, 138, rfl⟩
abbrev main_cst_38 : Ref sig .tc := ⟨.hbm, 139, rfl⟩
abbrev main_v76 : Ref sig .tc := ⟨.hbm, 140, rfl⟩
abbrev main_v77 : Ref sig .tc := ⟨.hbm, 141, rfl⟩
abbrev main_cst_39 : Ref sig .tc := ⟨.hbm, 142, rfl⟩
abbrev main_cst_40 : Ref sig .tc := ⟨.hbm, 143, rfl⟩
abbrev main_call11_v0 : Ref sig .tc := ⟨.hbm, 144, rfl⟩
abbrev main_call11_v1 : Ref sig .tc := ⟨.hbm, 145, rfl⟩
abbrev main_v78 : Ref sig .tc := ⟨.hbm, 146, rfl⟩
abbrev main_cst_41 : Ref sig .tc := ⟨.hbm, 147, rfl⟩
abbrev main_call12_v0 : Ref sig .tc := ⟨.hbm, 148, rfl⟩
abbrev main_v79 : Ref sig .tc := ⟨.hbm, 149, rfl⟩
abbrev main_cst_42 : Ref sig .tc := ⟨.hbm, 150, rfl⟩
abbrev main_call13_v0 : Ref sig .tc := ⟨.hbm, 151, rfl⟩
abbrev main_v80 : Ref sig .tc := ⟨.hbm, 152, rfl⟩
abbrev main_cst_43 : Ref sig .tc := ⟨.hbm, 153, rfl⟩
abbrev main_call14_v0 : Ref sig .tc := ⟨.hbm, 154, rfl⟩
abbrev main_v81 : Ref sig .tc := ⟨.hbm, 155, rfl⟩
abbrev main_cst_44 : Ref sig .tc := ⟨.hbm, 156, rfl⟩
abbrev main_call15_v0 : Ref sig .tc := ⟨.hbm, 157, rfl⟩
abbrev main_v82 : Ref sig .tc := ⟨.hbm, 158, rfl⟩
abbrev main_cst_45 : Ref sig .tc := ⟨.hbm, 159, rfl⟩
abbrev main_call16_v0 : Ref sig .tc := ⟨.hbm, 160, rfl⟩
abbrev main_v83 : Ref sig .tc := ⟨.hbm, 161, rfl⟩
abbrev main_cst_46 : Ref sig .tc := ⟨.hbm, 162, rfl⟩
abbrev main_call17_v0 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S8192x4096_S8192x128x32 : S8192x4096.ShapeCasts S8192x128x32
  reducesTo_S8192x128x32_S8192x128_d2 : S8192x128x32.ReducesTo [2] S8192x128
  h_S_ : 0 < S_.numel
  bcast_S_S8192x128 : S_.BroadcastsInDim S8192x128 (![] : Fin 0 → Fin S8192x128.rank)
  bcast_S8192x128_S8192x128x1_0_1 : S8192x128.BroadcastsInDim S8192x128x1 (![0, 1] : Fin 2 → Fin S8192x128x1.rank)
  bcast_S8192x128x1_S8192x128x32_0_1_2 : S8192x128x1.BroadcastsInDim S8192x128x32 (![0, 1, 2] : Fin 3 → Fin S8192x128x32.rank)
  bcast_S_S8192x128x32 : S_.BroadcastsInDim S8192x128x32 (![] : Fin 0 → Fin S8192x128x32.rank)
  shapeCasts_S8192x128x32_S8192x4096 : S8192x128x32.ShapeCasts S8192x4096
  shapeCasts_S4096x4096_S4096x128x32 : S4096x4096.ShapeCasts S4096x128x32
  reducesTo_S4096x128x32_S4096x128_d2 : S4096x128x32.ReducesTo [2] S4096x128
  bcast_S_S4096x128 : S_.BroadcastsInDim S4096x128 (![] : Fin 0 → Fin S4096x128.rank)
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  bcast_S_S4096x128x32 : S_.BroadcastsInDim S4096x128x32 (![] : Fin 0 → Fin S4096x128x32.rank)
  shapeCasts_S4096x128x32_S4096x4096 : S4096x128x32.ShapeCasts S4096x4096
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Kernel.Quant0.lean ====
/-
  Region 0: the blockwise quantise-dequantise kernel on a tile of 128 rows. The kernel reads its whole input tile,
  computes every entry of the output tile from the 32 entries of the input's own group, and stores the output tile
  whole; nothing is kept between grid points. Stated at any element interpretation `F` and at any contents `V` of
  the buffers when the region is entered.
-/
import proofs.«138616_j15023795602200_1_alg».proof.Proof.Gen.Kernel.Launch
import proofs.«138616_j15023795602200_1_alg».proof.Proof.Gen.Kernel.Skeleton
import proofs.«138616_j15023795602200_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output tile as a function of the input tile: the kernel's arithmetic, one pure term. -/
def quant0 (x : Vec F S128x4096 .f32) : Vec F S128x4096 .bf16 :=
  k0_pay1 (k0_pay3 x) (k0_pay5 x) (k0_pay7 x) (k0_pay8 x) (k0_pay9 x) (k0_pay10 x) (k0_pay11 x) (k0_pay12 x) (k0_pay13 x) (Scalar.ofBits .f32 0x40C00000#32) (k0_pay14 (F := F))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block, whether it was fetched at this point or before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole tile as a rectangle. -/
abbrev tile0 : Rect S128x4096 := Rect.unit (s := S128x4096) ![0, 0] S128x4096.size inb_S128x4096_S128x4096_0_0

/-- What the body leaves in the output window's staging buffer, given the input tile. -/
def out0_1 (x0 : Vec F S128x4096 .f32) : Vec F S128x4096 .bf16 :=
  View.canon [⟨tile0, quant0 (View.ld x0 tile0)⟩]

/-- The one store covers the tile. -/
theorem cover0_1 (p0 : Vec F S128x4096 .bf16) (y : S128x4096.Idx) :
    ∃ pc ∈ ([⟨tile0, p0⟩] : List (View.Piece (Elt F) S128x4096 .bf16)), y ∈ pc.1.set :=
  View.cover_of_tiled [⟨tile0, p0⟩] S128x4096.size (by rfl) y

/-- The stored tile is the kernel's arithmetic applied to the input tile. -/
theorem out0_1_eq (x0 : Vec F S128x4096 .f32) : out0_1 x0 = quant0 x0 := by
  -- both offsets of the tile are zero, so a load through it is the buffer and one store through it is its payload
  have hz : (![0, 0] : Fin 2 → Nat) = fun _ => 0 := funext fun a => by fin_cases a <;> rfl
  unfold out0_1 tile0
  rw [View.canon_unit_zero (S := S128x4096) hz inb_S128x4096_S128x4096_0_0,
    View.ld_unit_zero (S := S128x4096) hz inb_S128x4096_S128x4096_0_0]

set_option maxHeartbeats 1000000 in
/-- The kernel body on whole staging buffers: the input's contents are kept, the output's become `out0_1` of them. -/
theorem sound_kernel0 (c : Dev nD) (E : Set ℕ) (i : grid0.Coords) (arg1 : Memref sig .tc .vmem S128x4096 .f32) (harg1 : arg1.IsWhole) (arg2 : Memref sig .tc .vmem S128x4096 .bf16) (harg2 : arg2.IsWhole)
    (x0 : Vec F S128x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  -- the input's buffer was only read
  isplitl [H0]
  · iexists f0; isplitr; · ipureintro; rfl
    iexact H0
  -- the output's buffer read back after its one store, which covers the tile
  iexists _; isplitr
  swap; · iexact H1
  ipureintro
  exact View.read_writes_eq_canon _ _ _ (cover0_1 _)

/-- The proof data of this pipeline: the arrays as the region finds them; after the body the input's buffer at its
    block and the output's at the kernel's arithmetic of it; the scoped rest and the generator register untouched;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  -- the input's staging buffer holds the point's block
  simp only [before0_0]
  -- the invariant and what is owed do not depend on the point
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.Kernel.Quant1.lean ====
/-
  Region 1: the blockwise quantise-dequantise kernel on a tile of 128 rows. The kernel reads its whole input tile,
  computes every entry of the output tile from the 32 entries of the input's own group, and stores the output tile
  whole; nothing is kept between grid points. Stated at any element interpretation `F` and at any contents `V` of
  the buffers when the region is entered.
-/
import proofs.«138616_j15023795602200_1_alg».proof.Proof.Gen.Kernel.Launch
import proofs.«138616_j15023795602200_1_alg».proof.Proof.Gen.Kernel.Skeleton
import proofs.«138616_j15023795602200_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output tile as a function of the input tile: the kernel's arithmetic, one pure term. -/
def quant1 (x : Vec F S128x4096 .f32) : Vec F S128x4096 .bf16 :=
  k1_pay1 (k1_pay3 x) (k1_pay5 x) (k1_pay7 x) (k1_pay8 x) (k1_pay9 x) (k1_pay10 x) (k1_pay11 x) (k1_pay12 x) (k1_pay13 x) (k1_pay14 (F := F)) (k1_pay15 (F := F))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block, whether it was fetched at this point or before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole tile as a rectangle. -/
abbrev tile1 : Rect S128x4096 := Rect.unit (s := S128x4096) ![0, 0] S128x4096.size inb_S128x4096_S128x4096_0_0

/-- What the body leaves in the output window's staging buffer, given the input tile. -/
def out1_1 (x0 : Vec F S128x4096 .f32) : Vec F S128x4096 .bf16 :=
  View.canon [⟨tile1, quant1 (View.ld x0 tile1)⟩]

/-- The one store covers the tile. -/
theorem cover1_1 (p0 : Vec F S128x4096 .bf16) (y : S128x4096.Idx) :
    ∃ pc ∈ ([⟨tile1, p0⟩] : List (View.Piece (Elt F) S128x4096 .bf16)), y ∈ pc.1.set :=
  View.cover_of_tiled [⟨tile1, p0⟩] S128x4096.size (by rfl) y

/-- The stored tile is the kernel's arithmetic applied to the input tile. -/
theorem out1_1_eq (x0 : Vec F S128x4096 .f32) : out1_1 x0 = quant1 x0 := by
  -- the tile starts at row 0 and column 0: reading through it gives the buffer back, and the single store through it
  -- leaves exactly what was stored
  have hz : (![0, 0] : Fin 2 → Nat) = fun _ => 0 := funext fun a => by fin_cases a <;> rfl
  unfold out1_1 tile1
  rw [View.canon_unit_zero (S := S128x4096) hz inb_S128x4096_S128x4096_0_0,
    View.ld_unit_zero (S := S128x4096) hz inb_S128x4096_S128x4096_0_0]

set_option maxHeartbeats 1000000 in
/-- The kernel body on whole staging buffers: the input's contents are kept, the output's become `out1_1` of them. -/
theorem sound_kernel1 (c : Dev nD) (E : Set ℕ) (i : grid1.Coords) (arg1 : Memref sig .tc .vmem S128x4096 .f32) (harg1 : arg1.IsWhole) (arg2 : Memref sig .tc .vmem S128x4096 .bf16) (harg2 : arg2.IsWhole)
    (x0 : Vec F S128x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__quant_kernel i arg1 harg1 arg2 harg2) K := by
  simp only [cc1__quant_kernel_eq_skeleton]; unfold cc1__quant_kernel_skel
  unfold owns
  iintro ⟨⟨%f0, %hf0, H0⟩, ⟨%d1, %f1, -, H1⟩, Hk⟩
  subst hf0
  sl_exec
  sl_step
  iapply Hk
  -- nothing was written to the input's buffer
  isplitl [H0]
  · iexists f0; isplitr; · ipureintro; rfl
    iexact H0
  -- the output's buffer holds its one store, which covers the whole tile
  iexists _; isplitr
  swap; · iexact H1
  ipureintro
  exact View.read_writes_eq_canon _ _ _ (cover1_1 _)

/-- The proof data of this pipeline: the arrays as the region finds them; after the body the input's buffer at its
    block and the output's at the kernel's arithmetic of it; the scoped rest and the generator register untouched;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  -- on entry the input's staging buffer is the point's block of the input array
  simp only [before1_0]
  -- neither the invariant nor the amount owed changes from one point to the next
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.Kernel.Matmul.lean ====
/-
  Region 2: the tiled matrix product. The grid is 8 × 4 × 2; at a point (i, j, k) the kernel multiplies a
  1024 × 2048 tile of the left operand with a 1024 × 2048 tile of the right operand (contracting the 2048 columns of
  both) and adds the product to an accumulator kept in scratch memory between the two points k = 0 and k = 1 of one
  output tile: at k = 0 the accumulator is first set to zero, at k = 1 it is copied to the output tile, which is
  written back there and nowhere else. Stated at any element interpretation `F` and at any contents `V` of the
  buffers when the region is entered.
-/
import proofs.«138616_j15023795602200_1_alg».proof.Proof.Gen.Kernel.Launch
import proofs.«138616_j15023795602200_1_alg».proof.Proof.Gen.Kernel.Skeleton
import proofs.«138616_j15023795602200_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block, whether it was fetched at this point or before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator -/

/-- The accumulator's reset value: the zero tile. -/
def mmZero : Vec F S1024x1024 .f32 := k2_pay1 (F := F)

/-- One accumulation: the accumulator plus the product of the two input tiles. -/
def mmStep (acc : Vec F S1024x1024 .f32) (x w : Vec F S1024x2048 .bf16) : Vec F S1024x1024 .f32 := k2_pay2 acc x w

/-- What the accumulator holds after the body at position `n`: at an even position (k = 0) one step from zero, at an odd
    position (k = 1) one step from what the position before left. -/
def acc2 (c : Dev nD) : (n : ℕ) → n < cfg2.N → Vec F S1024x1024 .f32
  | 0, hn => mmStep mmZero (iblk2 V c 0 ⟨0, hn⟩) (iblk2 V c 1 ⟨0, hn⟩)
  | n + 1, hn =>
    if (n + 1) % 2 = 0 then mmStep mmZero (iblk2 V c 0 ⟨n + 1, hn⟩) (iblk2 V c 1 ⟨n + 1, hn⟩)
    else mmStep (acc2 c n (Nat.lt_of_succ_lt hn)) (iblk2 V c 0 ⟨n + 1, hn⟩) (iblk2 V c 1 ⟨n + 1, hn⟩)

theorem acc2_even (c : Dev nD) (t : Fin cfg2.N) (h : t.val % 2 = 0) :
    acc2 V c t.val t.isLt = mmStep mmZero (iblk2 V c 0 t) (iblk2 V c 1 t) := by
  obtain ⟨n, hn⟩ := t
  cases n with
  | zero => rfl
  | succ n => exact if_pos h

theorem acc2_odd (c : Dev nD) (t : Fin cfg2.N) (h : t.val % 2 = 1) :
    acc2 V c t.val t.isLt = mmStep (acc2 V c (t.val - 1) (Nat.lt_of_le_of_lt (Nat.sub_le _ _) t.isLt)) (iblk2 V c 0 t) (iblk2 V c 1 t) := by
  obtain ⟨n, hn⟩ := t
  cases n with
  | zero => exact absurd h (by dsimp only; omega)
  | succ n => exact if_neg (by dsimp only at h; omega)

/-! ## The conditions and the idle points -/

/-- The reset's condition: the third grid coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- The copy-out's condition: the third grid coordinate is 1. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The invariant: the scoped rest with the accumulator at named contents -/

abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
/-- The accumulator's buffer. -/
abbrev scM2 : Memref sig .tc .vmem S1024x1024 .f32 := Memref.whole cc2_scratch0

/-- The scoped buffers of the core that this region neither stages through nor accumulates in, each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The region's entry invariant is those buffers, the accumulator's buffer at some contents, and the generator register. -/
theorem PhiA2_split (c : Dev nD) :
    (Pipeline.ΦA spec2 c : sProp 𝕄) ⊢ iprop((others2 (F := F) c ∗ (∃ d, owns (c : Thread nD τ) scM2 fullShare d)) ∗ (∃ r, prngReg c r)) := by
  unfold Pipeline.ΦA; rw [scopedRest2_eq]; unfold others2
  simp only [owns_whole]
  iintro ⟨⟨H0, H1, H2, H3, H4, H5, H6, H7, H8⟩, Hg⟩
  isplitr [Hg]
  · isplitr [H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact H8
  · iexact Hg
theorem PhiA2_join (c : Dev nD) :
    iprop((others2 (F := F) c ∗ (∃ d, owns (c : Thread nD τ) scM2 fullShare d)) ∗ (∃ r, prngReg c r)) ⊢ (Pipeline.ΦA spec2 c : sProp 𝕄) := by
  unfold Pipeline.ΦA; rw [scopedRest2_eq]; unfold others2
  simp only [owns_whole]
  iintro ⟨⟨⟨H0, H1, H2, H3, H4, H5, H6, H7⟩, H8⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iexact Hg

/-- The invariant before position `n`: at the start the region's entry invariant; afterwards the same with the
    accumulator at what the position before left in it. -/
def PhiS2 (c : Dev nD) : (n : ℕ) → n ≤ cfg2.N → sProp 𝕄
  | 0, _ => Pipeline.ΦA spec2 c
  | n + 1, hn => iprop((others2 (F := F) c ∗ owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((others2 (F := F) c ∗ owns (c : Thread nD τ) scM2 fullShare (acc2 V c n hn)) ∗ (∃ r, prngReg c r)) := rfl
theorem PhiS2_pos (c : Dev nD) (n : ℕ) (h : n ≤ cfg2.N) (hz : n ≠ 0) :
    PhiS2 V c n h = iprop((others2 (F := F) c ∗ owns (c : Thread nD τ) scM2 fullShare (acc2 V c (n - 1) (by omega))) ∗ (∃ r, prngReg c r)) := by
  cases n with
  | zero => exact absurd rfl hz
  | succ n => rfl

/-- At any position the invariant gives the accumulator's buffer at SOME contents beside the other buffers and the
    generator register. -/
theorem PhiS2_any (c : Dev nD) (n : ℕ) (h : n ≤ cfg2.N) :
    PhiS2 V c n h ⊢ iprop((others2 (F := F) c ∗ (∃ d, owns (c : Thread nD τ) scM2 fullShare d)) ∗ (∃ r, prngReg c r)) := by
  cases n with
  | zero => exact PhiA2_split c
  | succ n =>
    rw [PhiS2_succ V c n h]
    iintro ⟨⟨Ho, HS⟩, Hg⟩
    isplitr [Hg]
    · isplitl [Ho]; · iexact Ho
      iexists _; iexact HS
    · iexact Hg

/-! ## The proof data -/

/-- The proof data of this pipeline: the arrays as the region finds them; after the body each input's buffer at its
    block and the output's at the accumulator's contents (consulted only at the odd positions, where the body copies the
    accumulator there); the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## Whole-tile loads and stores -/

/-- The whole-tile rectangle's offsets are zero. -/
theorem hz2 : (![0, 0] : Fin 2 → Nat) = fun _ => 0 := funext fun a => by fin_cases a <;> rfl

/-- The whole accumulator tile as a rectangle of itself. -/
abbrev tileA : Rect S1024x1024 := Rect.unit (s := S1024x1024) ![0, 0] S1024x1024.size inb_S1024x1024_S1024x1024_0_0
/-- A whole input tile as a rectangle of itself. -/
abbrev tileI : Rect S1024x2048 := Rect.unit (s := S1024x2048) ![0, 0] S1024x2048.size inb_S1024x2048_S1024x2048_0_0

/-- One store of the whole tile covers it. -/
theorem coverA (p : Vec F S1024x1024 .f32) (y : S1024x1024.Idx) :
    ∃ pc ∈ ([⟨tileA, p⟩] : List (View.Piece (Elt F) S1024x1024 .f32)), y ∈ pc.1.set :=
  View.cover_of_tiled [⟨tileA, p⟩] S1024x1024.size (by rfl) y

/-- A buffer stored whole once reads as the stored tile. -/
theorem read_store1 {κ : Kind} {sp : Space} (v : View sig κ sp S1024x1024 .f32) (f : v.ty.Contents (Elt F)) (p : Vec F S1024x1024 .f32) :
    v.read (Elt F) (v.writes (Elt F) f [⟨tileA, p⟩]) = p := by
  rw [View.read_writes_eq_canon _ _ _ (coverA p), View.canon_unit_zero (S := S1024x1024) hz2 inb_S1024x1024_S1024x1024_0_0]

/-- A buffer stored whole twice reads as the later tile. -/
theorem read_store2 {κ : Kind} {sp : Space} (v : View sig κ sp S1024x1024 .f32) (f : v.ty.Contents (Elt F)) (p q : Vec F S1024x1024 .f32) :
    v.read (Elt F) (v.writes (Elt F) f [⟨tileA, p⟩, ⟨tileA, q⟩]) = p := by
  rw [View.read_writes_eq_canon _ _ _ (fun y => by
      obtain ⟨pc, hm, hy⟩ := coverA p y
      exact ⟨pc, List.mem_cons.mpr (Or.inl (List.mem_singleton.mp hm)), hy⟩),
    View.canon_cons_unit_zero (S := S1024x1024) hz2 inb_S1024x1024_S1024x1024_0_0]

/-- A whole-tile load after one whole-tile store reads the stored tile. -/
theorem load_store1 {κ : Kind} {sp : Space} (v : View sig κ sp S1024x1024 .f32) (p : Vec F S1024x1024 .f32) :
    v.readCov [(⟨tileA, p⟩ : View.Piece (Elt F) S1024x1024 .f32)] tileA.toLoadRect = p :=
  View.readCov_unit_zero (S := S1024x1024) v hz2 inb_S1024x1024_S1024x1024_0_0 p

/-- A whole-tile load of a whole buffer reads its contents. -/
theorem load_wholeA (m : Memref sig .tc .vmem S1024x1024 .f32) (h : m.IsWhole) (X : Vec F S1024x1024 .f32) :
    m.view.readAt (Elt F) tileA.toLoadRect (h.unread X) = X := by
  rw [View.readAt_eq_ld, h.read_unread, View.ld_unit_zero (S := S1024x1024) hz2 inb_S1024x1024_S1024x1024_0_0]
theorem load_wholeI (m : Memref sig .tc .vmem S1024x2048 .bf16) (h : m.IsWhole) (X : Vec F S1024x2048 .bf16) :
    m.view.readAt (Elt F) tileI.toLoadRect (h.unread X) = X := by
  rw [View.readAt_eq_ld, h.read_unread, View.ld_unit_zero (S := S1024x2048) hz2 inb_S1024x2048_S1024x2048_0_0]

/-! ## The body's run at a point of each kind -/

theorem mmStep_def (a : Vec F S1024x1024 .f32) (x w : Vec F S1024x2048 .bf16) : k2_pay2 a x w = mmStep a x w := rfl
theorem mmZero_def : k2_pay1 (F := F) = mmZero := rfl

set_option maxHeartbeats 4800000 in
/-- At a point with k = 0 the body sets the accumulator to zero, reads it back, adds the product of the two input
    tiles and stores the sum; the output tile's buffer is not touched. Whatever the accumulator held before, it ends
    one step from zero. -/
theorem sound_kernel2_even (c : Dev nD) (E : Set ℕ) (i : grid2.Coords)
    (arg3 : Memref sig .tc .vmem S1024x2048 .bf16) (harg3 : arg3.IsWhole)
    (arg4 : Memref sig .tc .vmem S1024x2048 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond2_0 i) (hc1 : ¬cond2_1 i)
    (x w : Vec F S1024x2048 .bf16) (K : PUnit → sProp 𝕄) :
    iprop(owns (c : Thread nD τ) arg3 fullShare x ∗ owns (c : Thread nD τ) arg4 fullShare w
        ∗ (∃ d, owns (c : Thread nD τ) arg6 fullShare d)
        ∗ (iprop(owns (c : Thread nD τ) arg3 fullShare x ∗ owns (c : Thread nD τ) arg4 fullShare w
            ∗ owns (c : Thread nD τ) arg6 fullShare (mmStep mmZero x w)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f3, %hf3, H3⟩, ⟨%f4, %hf4, H4⟩, ⟨%d6, %f6, -, H6⟩, Hk⟩
  obtain rfl := harg3.eq_unread hf3; obtain rfl := harg4.eq_unread hf4
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H6
  ipureintro
  -- the accumulator after its two whole-tile stores reads as the later one's payload, whose first operand is the
  -- zero tile read back and whose other two are the input tiles
  sl_unfold_words
  rw [read_store2, load_store1, load_wholeI arg3 harg3, load_wholeI arg4 harg4, mmZero_def, mmStep_def]

set_option maxHeartbeats 4800000 in
/-- At a point with k = 1 the body reads the accumulator, adds the product of the two input tiles, stores the sum, and
    copies the accumulator whole into the output tile's buffer: both end one step from what the accumulator held. -/
theorem sound_kernel2_odd (c : Dev nD) (E : Set ℕ) (i : grid2.Coords)
    (arg3 : Memref sig .tc .vmem S1024x2048 .bf16) (harg3 : arg3.IsWhole)
    (arg4 : Memref sig .tc .vmem S1024x2048 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬cond2_0 i) (hc1 : cond2_1 i)
    (x w : Vec F S1024x2048 .bf16) (a : Vec F S1024x1024 .f32) (K : PUnit → sProp 𝕄) :
    iprop(owns (c : Thread nD τ) arg3 fullShare x ∗ owns (c : Thread nD τ) arg4 fullShare w
        ∗ (∃ d, owns (c : Thread nD τ) arg5 fullShare d)
        ∗ owns (c : Thread nD τ) arg6 fullShare a
        ∗ (iprop(owns (c : Thread nD τ) arg3 fullShare x ∗ owns (c : Thread nD τ) arg4 fullShare w
            ∗ owns (c : Thread nD τ) arg5 fullShare (mmStep a x w)
            ∗ owns (c : Thread nD τ) arg6 fullShare (mmStep a x w)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    -- the output tile's buffer holds its one whole-tile store's payload: the accumulator read back after its store
    sl_unfold_words
    rw [read_store1, load_store1, load_wholeA arg6 harg6, load_wholeI arg3 harg3, load_wholeI arg4 harg4, mmStep_def]
  iexists _; isplitr
  swap; · iexact H6
  ipureintro
  -- the accumulator holds its one whole-tile store's payload
  sl_unfold_words
  rw [read_store1, load_wholeA arg6 harg6, load_wholeI arg3 harg3, load_wholeI arg4 harg4, mmStep_def]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [PhiS2_castSucc V c t]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 2 = 0
  · -- k = 0: the accumulator is reset, so what it held does not matter; the output tile's buffer is idle
    have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [acc2_even V c t h0]
    iintro ⟨HΦ, Ho, ⟨%d0, H0⟩, ⟨%d1, H1⟩, ⟨%d2, H2⟩⟩
    ihave HΦ' := (PhiS2_any V c t.val (Nat.le_of_lt t.isLt)) $$ HΦ
    icases HΦ' with ⟨⟨Hoth, HS⟩, Hg⟩
    iapply (sound_kernel2_even c Set.univ (grid2.coords t) _ _ _ _ _ _ _ _ hc0 hc1 (iblk2 V c 0 t) (iblk2 V c 1 t) _)
    isplitl [H0]; · iexact H0
    isplitl [H1]; · iexact H1
    isplitl [HS]; · iexact HS
    iintro ⟨H0, H1, HS⟩
    isplitl [Hoth HS Hg]
    · isplitr [Hg]
      · isplitl [Hoth]; · iexact Hoth
        iexact HS
      · iexact Hg
    isplitl [Ho]; · iexact Ho
    isplitl [H0]; · iexact H0
    isplitl [H1]; · iexact H1
    iexists _; iexact H2
  · -- k = 1: the accumulator enters at what the point before left, and the output tile's buffer receives its copy
    have h1 : t.val % 2 = 1 := by omega
    have hc0 : ¬cond2_0 (grid2.coords t) := fun h => h0 ((hcond2_0 t).mp h)
    have hc1 : cond2_1 (grid2.coords t) := (hcond2_1 t).mpr h1
    have hz : t.val ≠ 0 := by omega
    rw [show (dat2 V c).leavesExact 2 t = owns (c : Thread nD τ) (ms2_2 t) fullShare ((dat2 V c).after 2 t) from by
      unfold Dat.leavesExact; rw [liveAt2_2 t hc1], after2_2]
    rw [acc2_odd V c t h1, PhiS2_pos V c _ _ hz]
    iintro ⟨⟨⟨Hoth, HS⟩, Hg⟩, Ho, ⟨%d0, H0⟩, ⟨%d1, H1⟩, ⟨%d2, H2⟩⟩
    iapply (sound_kernel2_odd c Set.univ (grid2.coords t) _ _ _ _ _ _ _ _ hc0 hc1 (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [Hoth HS Hg]
    · isplitr [Hg]
      · isplitl [Hoth]; · iexact Hoth
        iexact HS
      · iexact Hg
    isplitl [Ho]; · iexact Ho
    isplitl [H0]; · iexact H0
    isplitl [H1]; · iexact H1
    iexact H2

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry invariant back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact BIBase.Entails.trans (PhiS2_any V c _ _) (PhiA2_join c)

end Cert.Kernel.Run

end
-- ==== Proof.Kernel.Whole.lean ====
/-
  The whole run of the program: one host reshape, the three kernel regions, one host reshape. The contents of every
  unscoped buffer are followed from the launch to the return as a fold through these five items: a host stretch
  applies its operations; a region leaves its arrays at what its write-backs leave and every other buffer as it found
  it. Every weakly fair execution terminates without a fault in a memory that holds, at every unscoped buffer, the
  last value of that fold. Stated at any element interpretation `F`.
-/
import proofs.«138616_j15023795602200_1_alg».proof.Proof.Kernel.Quant0
import proofs.«138616_j15023795602200_1_alg».proof.Proof.Kernel.Quant1
import proofs.«138616_j15023795602200_1_alg».proof.Proof.Kernel.Matmul

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline's write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline's write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline's write-backs leave, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the last host stretch (the return). -/
abbrev W5 : Dev nD → Valuation τ sig (Elt F) := fun c => StableHlo.after hostOps3 (W4 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back, at what the
    write-backs leave, at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back, at what the
    write-backs leave, at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers at entry and put back, at what the
    write-backs leave, at exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m) c); unfold Pipeline.ΦA
    iintro ⟨Hp, -, Hr⟩
    isplitl [Hr]; · iexact Hr
    iexact Hp
  hout c := by
    rw [Pipeline.ownSems0_none]; refine (hout2 (V3 m) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m),
    .host (hseg hostOps3 hostOps3_sub hostOps3_fresh' (W4 m)) ]
theorem main_run (c : Dev nD) : main (F := F) c = Pipeline.Seg.run (segs m) := (main_chain c).trans (by chain_rfl)

set_option backward.isDefEq.respectTransparency.types false in
/-- Every weakly fair execution of the program terminates without a fault, and the final memory holds every unscoped
    buffer at the last value of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Run

end
-- ==== Proof.Kernel.WholeValues.lean ====
/-
  The fold of the whole run read at the buffers the claims speak of: the two arguments end as launched; the result
  buffer ends at the reshape of what the matrix-product region leaves in its output array; that region finds its
  two inputs at what the two quantise-dequantise regions left; those find the reshaped activations and the weights.
-/
import proofs.«138616_j15023795602200_1_alg».proof.Proof.Kernel.Whole
import Idealize.ShloMosaic.Lib.StableHlo.Run

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W1_of_ne (c : Dev nD) (b : Ref sig .tc) (hb : b ≠ main_v0) : W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W5_of_ne (c : Dev nD) (b : Ref sig .tc) (hb : b ≠ main_v4) : W5 m c (Proc.devRef .tc b) = W4 m c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- The activations end as launched: no item writes them. -/
theorem W5_main_arg0 (c : Dev nD) : W5 m c (Proc.devRef .tc main_arg0) = m ((c : Thread nD τ).loc main_arg0) :=
  (W5_of_ne m c main_arg0 (by decide)).trans <| (W4_of_ne m c main_arg0 (by decide)).trans <|
    (W3_of_ne m c main_arg0 (by decide)).trans <| (W2_of_ne m c main_arg0 (by decide)).trans <| W1_of_ne m c main_arg0 (by decide)

/-- The weights end as launched: region 1 reads them through an input window, nothing writes them. -/
theorem W5_main_arg1 (c : Dev nD) : W5 m c (Proc.devRef .tc main_arg1) = m ((c : Thread nD τ).loc main_arg1) :=
  (W5_of_ne m c main_arg1 (by decide)).trans <| (W4_of_ne m c main_arg1 (by decide)).trans <|
    ((W3_arr m c 0).trans (((dat1 (V2 m) c).arrAt_in 0 rfl _).trans (A_eq1 (V2 m) c 0))).trans <|
    (W2_of_ne m c main_arg1 (by decide)).trans <| W1_of_ne m c main_arg1 (by decide)

/-- Region 1 finds the weights as launched. -/
theorem V2_main_arg1 (c : Dev nD) : V2 m c main_arg1 = m ((c : Thread nD τ).loc main_arg1) :=
  (W2_of_ne m c main_arg1 (by decide)).trans (W1_of_ne m c main_arg1 (by decide))

/-- Region 2 finds its left input at what region 0 left, -/
theorem V3_main_v1 (c : Dev nD) : V3 m c main_v1 = (dat0 (V1 m) c).arrAt 1 cfg0.N :=
  (W3_of_ne m c main_v1 (by decide)).trans (W2_arr m c 1)

/-- and its right input at what region 1 left. -/
theorem V3_main_v2 (c : Dev nD) : V3 m c main_v2 = (dat1 (V2 m) c).arrAt 1 cfg1.N :=
  W3_arr m c 1

/-- What region 2 leaves in its output array. -/
theorem V4_main_v3 (c : Dev nD) : V4 m c main_v3 = (dat2 (V3 m) c).arrAt 2 cfg2.N :=
  W4_arr m c 2

/-- Region 0 finds the activations reshaped to 8192 rows. -/
theorem V1_main_v0 (c : Dev nD) :
    V1 m c main_v0 = shapeCast S8192x4096 (m ((c : Thread nD τ).loc main_arg0)) shapeCasts_S4x2048x4096_S8192x4096 := by
  show StableHlo.after hostOps0 (W0 m c) (Proc.devRef .tc main_v0) = _
  after_results
  rfl

/-- The result buffer ends at the reshape of region 2's output array. -/
theorem W5_main_v4 (c : Dev nD) :
    W5 m c (Proc.devRef .tc main_v4) = shapeCast S4x2048x4096 (V4 m c main_v3) shapeCasts_S8192x4096_S4x2048x4096 := by
  show StableHlo.after hostOps3 (W4 m c) (Proc.devRef .tc main_v4) = _
  after_results
  rfl

/-- Every weakly fair execution terminates without a fault; the result buffer and the two arguments end as the fold says. -/
theorem run_result (ρ : Dev nD → PrngReg) : θ_run defs (onTc (τ := τ) (main (F := F))) ⟨m, fun _ => 0, ρ⟩ (fun r => ∀ c : Dev nD,
      r.2.mem ((c.tc : Thread nD τ).loc main_v4) = shapeCast S4x2048x4096 (V4 m c main_v3) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v4 (by decide))).trans (W5_main_v4 m c),
     (h c _ (mem_uc main_arg0 (by decide))).trans (W5_main_arg0 m c),
     (h c _ (mem_uc main_arg1 (by decide))).trans (W5_main_arg1 m c)⟩) (run_all m ρ)

/-- The frame: every weakly fair execution terminates without a fault and the two arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Run

end
-- ==== Proof.KernelIdeal.Quant0.lean ====
/-
  Region 0: the blockwise quantise-dequantise kernel on a tile of 128 rows. The kernel reads its whole input tile,
  computes every entry of the output tile from the 32 entries of the input's own group, and stores the output tile
  whole; nothing is kept between grid points. Stated at any element interpretation `F` and at any contents `V` of
  the buffers when the region is entered.
-/
import proofs.«138616_j15023795602200_1_alg».proof.Proof.Gen.KernelIdeal.Launch
import proofs.«138616_j15023795602200_1_alg».proof.Proof.Gen.KernelIdeal.Skeleton
import proofs.«138616_j15023795602200_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output tile as a function of the input tile: the kernel's arithmetic, one pure term. -/
def quant0 (x : Vec F S128x4096 .f32) : Vec F S128x4096 .bf16 :=
  k0_pay1 (k0_pay3 x) (k0_pay5 x) (k0_pay7 x) (k0_pay8 x) (k0_pay9 x) (k0_pay10 x) (k0_pay11 x) (k0_pay12 x) (k0_pay13 x) (Scalar.ofBits .f32 0x40C00000#32) (k0_pay14 (F := F))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block, whether it was fetched at this point or before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole tile as a rectangle. -/
abbrev tile0 : Rect S128x4096 := Rect.unit (s := S128x4096) ![0, 0] S128x4096.size inb_S128x4096_S128x4096_0_0

/-- What the body leaves in the output window's staging buffer, given the input tile. -/
def out0_1 (x0 : Vec F S128x4096 .f32) : Vec F S128x4096 .bf16 :=
  View.canon [⟨tile0, quant0 (View.ld x0 tile0)⟩]

/-- The one store covers the tile. -/
theorem cover0_1 (p0 : Vec F S128x4096 .bf16) (y : S128x4096.Idx) :
    ∃ pc ∈ ([⟨tile0, p0⟩] : List (View.Piece (Elt F) S128x4096 .bf16)), y ∈ pc.1.set :=
  View.cover_of_tiled [⟨tile0, p0⟩] S128x4096.size (by rfl) y

/-- The stored tile is the kernel's arithmetic applied to the input tile. -/
theorem out0_1_eq (x0 : Vec F S128x4096 .f32) : out0_1 x0 = quant0 x0 := by
  -- both offsets of the tile are zero, so a load through it is the buffer and one store through it is its payload
  have hz : (![0, 0] : Fin 2 → Nat) = fun _ => 0 := funext fun a => by fin_cases a <;> rfl
  unfold out0_1 tile0
  rw [View.canon_unit_zero (S := S128x4096) hz inb_S128x4096_S128x4096_0_0,
    View.ld_unit_zero (S := S128x4096) hz inb_S128x4096_S128x4096_0_0]

set_option maxHeartbeats 1000000 in
/-- The kernel body on whole staging buffers: the input's contents are kept, the output's become `out0_1` of them. -/
theorem sound_kernel0 (c : Dev nD) (E : Set ℕ) (i : grid0.Coords) (arg1 : Memref sig .tc .vmem S128x4096 .f32) (harg1 : arg1.IsWhole) (arg2 : Memref sig .tc .vmem S128x4096 .bf16) (harg2 : arg2.IsWhole)
    (x0 : Vec F S128x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  -- the input's buffer was only read
  isplitl [H0]
  · iexists f0; isplitr; · ipureintro; rfl
    iexact H0
  -- the output's buffer read back after its one store, which covers the tile
  iexists _; isplitr
  swap; · iexact H1
  ipureintro
  exact View.read_writes_eq_canon _ _ _ (cover0_1 _)

/-- The proof data of this pipeline: the arrays as the region finds them; after the body the input's buffer at its
    block and the output's at the kernel's arithmetic of it; the scoped rest and the generator register untouched;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  -- the input's staging buffer holds the point's block
  simp only [before0_0]
  -- the invariant and what is owed do not depend on the point
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KernelIdeal.Quant1.lean ====
/-
  Region 1: the blockwise quantise-dequantise kernel on a tile of 128 rows. The kernel reads its whole input tile,
  computes every entry of the output tile from the 32 entries of the input's own group, and stores the output tile
  whole; nothing is kept between grid points. Stated at any element interpretation `F` and at any contents `V` of
  the buffers when the region is entered.
-/
import proofs.«138616_j15023795602200_1_alg».proof.Proof.Gen.KernelIdeal.Launch
import proofs.«138616_j15023795602200_1_alg».proof.Proof.Gen.KernelIdeal.Skeleton
import proofs.«138616_j15023795602200_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output tile as a function of the input tile: the kernel's arithmetic, one pure term. -/
def quant1 (x : Vec F S128x4096 .f32) : Vec F S128x4096 .bf16 :=
  k1_pay1 (k1_pay3 x) (k1_pay5 x) (k1_pay7 x) (k1_pay8 x) (k1_pay9 x) (k1_pay10 x) (k1_pay11 x) (k1_pay12 x) (k1_pay13 x) (k1_pay14 (F := F)) (k1_pay15 (F := F))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block, whether it was fetched at this point or before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole tile as a rectangle. -/
abbrev tile1 : Rect S128x4096 := Rect.unit (s := S128x4096) ![0, 0] S128x4096.size inb_S128x4096_S128x4096_0_0

/-- What the body leaves in the output window's staging buffer, given the input tile. -/
def out1_1 (x0 : Vec F S128x4096 .f32) : Vec F S128x4096 .bf16 :=
  View.canon [⟨tile1, quant1 (View.ld x0 tile1)⟩]

/-- The one store covers the tile. -/
theorem cover1_1 (p0 : Vec F S128x4096 .bf16) (y : S128x4096.Idx) :
    ∃ pc ∈ ([⟨tile1, p0⟩] : List (View.Piece (Elt F) S128x4096 .bf16)), y ∈ pc.1.set :=
  View.cover_of_tiled [⟨tile1, p0⟩] S128x4096.size (by rfl) y

/-- The stored tile is the kernel's arithmetic applied to the input tile. -/
theorem out1_1_eq (x0 : Vec F S128x4096 .f32) : out1_1 x0 = quant1 x0 := by
  -- the tile starts at row 0 and column 0: reading through it gives the buffer back, and the single store through it
  -- leaves exactly what was stored
  have hz : (![0, 0] : Fin 2 → Nat) = fun _ => 0 := funext fun a => by fin_cases a <;> rfl
  unfold out1_1 tile1
  rw [View.canon_unit_zero (S := S128x4096) hz inb_S128x4096_S128x4096_0_0,
    View.ld_unit_zero (S := S128x4096) hz inb_S128x4096_S128x4096_0_0]

set_option maxHeartbeats 1000000 in
/-- The kernel body on whole staging buffers: the input's contents are kept, the output's become `out1_1` of them. -/
theorem sound_kernel1 (c : Dev nD) (E : Set ℕ) (i : grid1.Coords) (arg1 : Memref sig .tc .vmem S128x4096 .f32) (harg1 : arg1.IsWhole) (arg2 : Memref sig .tc .vmem S128x4096 .bf16) (harg2 : arg2.IsWhole)
    (x0 : Vec F S128x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__quant_kernel i arg1 harg1 arg2 harg2) K := by
  simp only [cc1__quant_kernel_eq_skeleton]; unfold cc1__quant_kernel_skel
  unfold owns
  iintro ⟨⟨%f0, %hf0, H0⟩, ⟨%d1, %f1, -, H1⟩, Hk⟩
  subst hf0
  sl_exec
  sl_step
  iapply Hk
  -- nothing was written to the input's buffer
  isplitl [H0]
  · iexists f0; isplitr; · ipureintro; rfl
    iexact H0
  -- the output's buffer holds its one store, which covers the whole tile
  iexists _; isplitr
  swap; · iexact H1
  ipureintro
  exact View.read_writes_eq_canon _ _ _ (cover1_1 _)

/-- The proof data of this pipeline: the arrays as the region finds them; after the body the input's buffer at its
    block and the output's at the kernel's arithmetic of it; the scoped rest and the generator register untouched;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  -- on entry the input's staging buffer is the point's block of the input array
  simp only [before1_0]
  -- neither the invariant nor the amount owed changes from one point to the next
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KernelIdeal.Matmul.lean ====
/-
  Region 2: the tiled matrix product. The grid is 8 × 4 × 2; at a point (i, j, k) the kernel multiplies a
  1024 × 2048 tile of the left operand with a 1024 × 2048 tile of the right operand (contracting the 2048 columns of
  both) and adds the product to an accumulator kept in scratch memory between the two points k = 0 and k = 1 of one
  output tile: at k = 0 the accumulator is first set to zero, at k = 1 it is copied to the output tile, which is
  written back there and nowhere else. Stated at any element interpretation `F` and at any contents `V` of the
  buffers when the region is entered.
-/
import proofs.«138616_j15023795602200_1_alg».proof.Proof.Gen.KernelIdeal.Launch
import proofs.«138616_j15023795602200_1_alg».proof.Proof.Gen.KernelIdeal.Skeleton
import proofs.«138616_j15023795602200_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block, whether it was fetched at this point or before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator -/

/-- The accumulator's reset value: the zero tile. -/
def mmZero : Vec F S1024x1024 .f32 := k2_pay1 (F := F)

/-- One accumulation: the accumulator plus the product of the two input tiles. -/
def mmStep (acc : Vec F S1024x1024 .f32) (x w : Vec F S1024x2048 .bf16) : Vec F S1024x1024 .f32 := k2_pay2 acc x w

/-- What the accumulator holds after the body at position `n`: at an even position (k = 0) one step from zero, at an odd
    position (k = 1) one step from what the position before left. -/
def acc2 (c : Dev nD) : (n : ℕ) → n < cfg2.N → Vec F S1024x1024 .f32
  | 0, hn => mmStep mmZero (iblk2 V c 0 ⟨0, hn⟩) (iblk2 V c 1 ⟨0, hn⟩)
  | n + 1, hn =>
    if (n + 1) % 2 = 0 then mmStep mmZero (iblk2 V c 0 ⟨n + 1, hn⟩) (iblk2 V c 1 ⟨n + 1, hn⟩)
    else mmStep (acc2 c n (Nat.lt_of_succ_lt hn)) (iblk2 V c 0 ⟨n + 1, hn⟩) (iblk2 V c 1 ⟨n + 1, hn⟩)

theorem acc2_even (c : Dev nD) (t : Fin cfg2.N) (h : t.val % 2 = 0) :
    acc2 V c t.val t.isLt = mmStep mmZero (iblk2 V c 0 t) (iblk2 V c 1 t) := by
  obtain ⟨n, hn⟩ := t
  cases n with
  | zero => rfl
  | succ n => exact if_pos h

theorem acc2_odd (c : Dev nD) (t : Fin cfg2.N) (h : t.val % 2 = 1) :
    acc2 V c t.val t.isLt = mmStep (acc2 V c (t.val - 1) (Nat.lt_of_le_of_lt (Nat.sub_le _ _) t.isLt)) (iblk2 V c 0 t) (iblk2 V c 1 t) := by
  obtain ⟨n, hn⟩ := t
  cases n with
  | zero => exact absurd h (by dsimp only; omega)
  | succ n => exact if_neg (by dsimp only at h; omega)

/-! ## The conditions and the idle points -/

/-- The reset's condition: the third grid coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- The copy-out's condition: the third grid coordinate is 1. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The invariant: the scoped rest with the accumulator at named contents -/

abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
/-- The accumulator's buffer. -/
abbrev scM2 : Memref sig .tc .vmem S1024x1024 .f32 := Memref.whole cc2_scratch0

/-- The scoped buffers of the core that this region neither stages through nor accumulates in, each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The region's entry invariant is those buffers, the accumulator's buffer at some contents, and the generator register. -/
theorem PhiA2_split (c : Dev nD) :
    (Pipeline.ΦA spec2 c : sProp 𝕄) ⊢ iprop((others2 (F := F) c ∗ (∃ d, owns (c : Thread nD τ) scM2 fullShare d)) ∗ (∃ r, prngReg c r)) := by
  unfold Pipeline.ΦA; rw [scopedRest2_eq]; unfold others2
  simp only [owns_whole]
  iintro ⟨⟨H0, H1, H2, H3, H4, H5, H6, H7, H8⟩, Hg⟩
  isplitr [Hg]
  · isplitr [H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact H8
  · iexact Hg
theorem PhiA2_join (c : Dev nD) :
    iprop((others2 (F := F) c ∗ (∃ d, owns (c : Thread nD τ) scM2 fullShare d)) ∗ (∃ r, prngReg c r)) ⊢ (Pipeline.ΦA spec2 c : sProp 𝕄) := by
  unfold Pipeline.ΦA; rw [scopedRest2_eq]; unfold others2
  simp only [owns_whole]
  iintro ⟨⟨⟨H0, H1, H2, H3, H4, H5, H6, H7⟩, H8⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iexact Hg

/-- The invariant before position `n`: at the start the region's entry invariant; afterwards the same with the
    accumulator at what the position before left in it. -/
def PhiS2 (c : Dev nD) : (n : ℕ) → n ≤ cfg2.N → sProp 𝕄
  | 0, _ => Pipeline.ΦA spec2 c
  | n + 1, hn => iprop((others2 (F := F) c ∗ owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((others2 (F := F) c ∗ owns (c : Thread nD τ) scM2 fullShare (acc2 V c n hn)) ∗ (∃ r, prngReg c r)) := rfl
theorem PhiS2_pos (c : Dev nD) (n : ℕ) (h : n ≤ cfg2.N) (hz : n ≠ 0) :
    PhiS2 V c n h = iprop((others2 (F := F) c ∗ owns (c : Thread nD τ) scM2 fullShare (acc2 V c (n - 1) (by omega))) ∗ (∃ r, prngReg c r)) := by
  cases n with
  | zero => exact absurd rfl hz
  | succ n => rfl

/-- At any position the invariant gives the accumulator's buffer at SOME contents beside the other buffers and the
    generator register. -/
theorem PhiS2_any (c : Dev nD) (n : ℕ) (h : n ≤ cfg2.N) :
    PhiS2 V c n h ⊢ iprop((others2 (F := F) c ∗ (∃ d, owns (c : Thread nD τ) scM2 fullShare d)) ∗ (∃ r, prngReg c r)) := by
  cases n with
  | zero => exact PhiA2_split c
  | succ n =>
    rw [PhiS2_succ V c n h]
    iintro ⟨⟨Ho, HS⟩, Hg⟩
    isplitr [Hg]
    · isplitl [Ho]; · iexact Ho
      iexists _; iexact HS
    · iexact Hg

/-! ## The proof data -/

/-- The proof data of this pipeline: the arrays as the region finds them; after the body each input's buffer at its
    block and the output's at the accumulator's contents (consulted only at the odd positions, where the body copies the
    accumulator there); the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## Whole-tile loads and stores -/

/-- The whole-tile rectangle's offsets are zero. -/
theorem hz2 : (![0, 0] : Fin 2 → Nat) = fun _ => 0 := funext fun a => by fin_cases a <;> rfl

/-- The whole accumulator tile as a rectangle of itself. -/
abbrev tileA : Rect S1024x1024 := Rect.unit (s := S1024x1024) ![0, 0] S1024x1024.size inb_S1024x1024_S1024x1024_0_0
/-- A whole input tile as a rectangle of itself. -/
abbrev tileI : Rect S1024x2048 := Rect.unit (s := S1024x2048) ![0, 0] S1024x2048.size inb_S1024x2048_S1024x2048_0_0

/-- One store of the whole tile covers it. -/
theorem coverA (p : Vec F S1024x1024 .f32) (y : S1024x1024.Idx) :
    ∃ pc ∈ ([⟨tileA, p⟩] : List (View.Piece (Elt F) S1024x1024 .f32)), y ∈ pc.1.set :=
  View.cover_of_tiled [⟨tileA, p⟩] S1024x1024.size (by rfl) y

/-- A buffer stored whole once reads as the stored tile. -/
theorem read_store1 {κ : Kind} {sp : Space} (v : View sig κ sp S1024x1024 .f32) (f : v.ty.Contents (Elt F)) (p : Vec F S1024x1024 .f32) :
    v.read (Elt F) (v.writes (Elt F) f [⟨tileA, p⟩]) = p := by
  rw [View.read_writes_eq_canon _ _ _ (coverA p), View.canon_unit_zero (S := S1024x1024) hz2 inb_S1024x1024_S1024x1024_0_0]

/-- A buffer stored whole twice reads as the later tile. -/
theorem read_store2 {κ : Kind} {sp : Space} (v : View sig κ sp S1024x1024 .f32) (f : v.ty.Contents (Elt F)) (p q : Vec F S1024x1024 .f32) :
    v.read (Elt F) (v.writes (Elt F) f [⟨tileA, p⟩, ⟨tileA, q⟩]) = p := by
  rw [View.read_writes_eq_canon _ _ _ (fun y => by
      obtain ⟨pc, hm, hy⟩ := coverA p y
      exact ⟨pc, List.mem_cons.mpr (Or.inl (List.mem_singleton.mp hm)), hy⟩),
    View.canon_cons_unit_zero (S := S1024x1024) hz2 inb_S1024x1024_S1024x1024_0_0]

/-- A whole-tile load after one whole-tile store reads the stored tile. -/
theorem load_store1 {κ : Kind} {sp : Space} (v : View sig κ sp S1024x1024 .f32) (p : Vec F S1024x1024 .f32) :
    v.readCov [(⟨tileA, p⟩ : View.Piece (Elt F) S1024x1024 .f32)] tileA.toLoadRect = p :=
  View.readCov_unit_zero (S := S1024x1024) v hz2 inb_S1024x1024_S1024x1024_0_0 p

/-- A whole-tile load of a whole buffer reads its contents. -/
theorem load_wholeA (m : Memref sig .tc .vmem S1024x1024 .f32) (h : m.IsWhole) (X : Vec F S1024x1024 .f32) :
    m.view.readAt (Elt F) tileA.toLoadRect (h.unread X) = X := by
  rw [View.readAt_eq_ld, h.read_unread, View.ld_unit_zero (S := S1024x1024) hz2 inb_S1024x1024_S1024x1024_0_0]
theorem load_wholeI (m : Memref sig .tc .vmem S1024x2048 .bf16) (h : m.IsWhole) (X : Vec F S1024x2048 .bf16) :
    m.view.readAt (Elt F) tileI.toLoadRect (h.unread X) = X := by
  rw [View.readAt_eq_ld, h.read_unread, View.ld_unit_zero (S := S1024x2048) hz2 inb_S1024x2048_S1024x2048_0_0]

/-! ## The body's run at a point of each kind -/

theorem mmStep_def (a : Vec F S1024x1024 .f32) (x w : Vec F S1024x2048 .bf16) : k2_pay2 a x w = mmStep a x w := rfl
theorem mmZero_def : k2_pay1 (F := F) = mmZero := rfl

set_option maxHeartbeats 4800000 in
/-- At a point with k = 0 the body sets the accumulator to zero, reads it back, adds the product of the two input
    tiles and stores the sum; the output tile's buffer is not touched. Whatever the accumulator held before, it ends
    one step from zero. -/
theorem sound_kernel2_even (c : Dev nD) (E : Set ℕ) (i : grid2.Coords)
    (arg3 : Memref sig .tc .vmem S1024x2048 .bf16) (harg3 : arg3.IsWhole)
    (arg4 : Memref sig .tc .vmem S1024x2048 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond2_0 i) (hc1 : ¬cond2_1 i)
    (x w : Vec F S1024x2048 .bf16) (K : PUnit → sProp 𝕄) :
    iprop(owns (c : Thread nD τ) arg3 fullShare x ∗ owns (c : Thread nD τ) arg4 fullShare w
        ∗ (∃ d, owns (c : Thread nD τ) arg6 fullShare d)
        ∗ (iprop(owns (c : Thread nD τ) arg3 fullShare x ∗ owns (c : Thread nD τ) arg4 fullShare w
            ∗ owns (c : Thread nD τ) arg6 fullShare (mmStep mmZero x w)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f3, %hf3, H3⟩, ⟨%f4, %hf4, H4⟩, ⟨%d6, %f6, -, H6⟩, Hk⟩
  obtain rfl := harg3.eq_unread hf3; obtain rfl := harg4.eq_unread hf4
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H6
  ipureintro
  -- the accumulator after its two whole-tile stores reads as the later one's payload, whose first operand is the
  -- zero tile read back and whose other two are the input tiles
  sl_unfold_words
  rw [read_store2, load_store1, load_wholeI arg3 harg3, load_wholeI arg4 harg4, mmZero_def, mmStep_def]

set_option maxHeartbeats 4800000 in
/-- At a point with k = 1 the body reads the accumulator, adds the product of the two input tiles, stores the sum, and
    copies the accumulator whole into the output tile's buffer: both end one step from what the accumulator held. -/
theorem sound_kernel2_odd (c : Dev nD) (E : Set ℕ) (i : grid2.Coords)
    (arg3 : Memref sig .tc .vmem S1024x2048 .bf16) (harg3 : arg3.IsWhole)
    (arg4 : Memref sig .tc .vmem S1024x2048 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬cond2_0 i) (hc1 : cond2_1 i)
    (x w : Vec F S1024x2048 .bf16) (a : Vec F S1024x1024 .f32) (K : PUnit → sProp 𝕄) :
    iprop(owns (c : Thread nD τ) arg3 fullShare x ∗ owns (c : Thread nD τ) arg4 fullShare w
        ∗ (∃ d, owns (c : Thread nD τ) arg5 fullShare d)
        ∗ owns (c : Thread nD τ) arg6 fullShare a
        ∗ (iprop(owns (c : Thread nD τ) arg3 fullShare x ∗ owns (c : Thread nD τ) arg4 fullShare w
            ∗ owns (c : Thread nD τ) arg5 fullShare (mmStep a x w)
            ∗ owns (c : Thread nD τ) arg6 fullShare (mmStep a x w)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    -- the output tile's buffer holds its one whole-tile store's payload: the accumulator read back after its store
    sl_unfold_words
    rw [read_store1, load_store1, load_wholeA arg6 harg6, load_wholeI arg3 harg3, load_wholeI arg4 harg4, mmStep_def]
  iexists _; isplitr
  swap; · iexact H6
  ipureintro
  -- the accumulator holds its one whole-tile store's payload
  sl_unfold_words
  rw [read_store1, load_wholeA arg6 harg6, load_wholeI arg3 harg3, load_wholeI arg4 harg4, mmStep_def]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [PhiS2_castSucc V c t]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 2 = 0
  · -- k = 0: the accumulator is reset, so what it held does not matter; the output tile's buffer is idle
    have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [acc2_even V c t h0]
    iintro ⟨HΦ, Ho, ⟨%d0, H0⟩, ⟨%d1, H1⟩, ⟨%d2, H2⟩⟩
    ihave HΦ' := (PhiS2_any V c t.val (Nat.le_of_lt t.isLt)) $$ HΦ
    icases HΦ' with ⟨⟨Hoth, HS⟩, Hg⟩
    iapply (sound_kernel2_even c Set.univ (grid2.coords t) _ _ _ _ _ _ _ _ hc0 hc1 (iblk2 V c 0 t) (iblk2 V c 1 t) _)
    isplitl [H0]; · iexact H0
    isplitl [H1]; · iexact H1
    isplitl [HS]; · iexact HS
    iintro ⟨H0, H1, HS⟩
    isplitl [Hoth HS Hg]
    · isplitr [Hg]
      · isplitl [Hoth]; · iexact Hoth
        iexact HS
      · iexact Hg
    isplitl [Ho]; · iexact Ho
    isplitl [H0]; · iexact H0
    isplitl [H1]; · iexact H1
    iexists _; iexact H2
  · -- k = 1: the accumulator enters at what the point before left, and the output tile's buffer receives its copy
    have h1 : t.val % 2 = 1 := by omega
    have hc0 : ¬cond2_0 (grid2.coords t) := fun h => h0 ((hcond2_0 t).mp h)
    have hc1 : cond2_1 (grid2.coords t) := (hcond2_1 t).mpr h1
    have hz : t.val ≠ 0 := by omega
    rw [show (dat2 V c).leavesExact 2 t = owns (c : Thread nD τ) (ms2_2 t) fullShare ((dat2 V c).after 2 t) from by
      unfold Dat.leavesExact; rw [liveAt2_2 t hc1], after2_2]
    rw [acc2_odd V c t h1, PhiS2_pos V c _ _ hz]
    iintro ⟨⟨⟨Hoth, HS⟩, Hg⟩, Ho, ⟨%d0, H0⟩, ⟨%d1, H1⟩, ⟨%d2, H2⟩⟩
    iapply (sound_kernel2_odd c Set.univ (grid2.coords t) _ _ _ _ _ _ _ _ hc0 hc1 (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [Hoth HS Hg]
    · isplitr [Hg]
      · isplitl [Hoth]; · iexact Hoth
        iexact HS
      · iexact Hg
    isplitl [Ho]; · iexact Ho
    isplitl [H0]; · iexact H0
    isplitl [H1]; · iexact H1
    iexact H2

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry invariant back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact BIBase.Entails.trans (PhiS2_any V c _ _) (PhiA2_join c)

end Cert.KernelIdeal.Run

end
-- ==== Proof.KernelIdeal.Whole.lean ====
/-
  The whole run of the program: one host reshape, the three kernel regions, one host reshape. The contents of every
  unscoped buffer are followed from the launch to the return as a fold through these five items: a host stretch
  applies its operations; a region leaves its arrays at what its write-backs leave and every other buffer as it found
  it. Every weakly fair execution terminates without a fault in a memory that holds, at every unscoped buffer, the
  last value of that fold. Stated at any element interpretation `F`.
-/
import proofs.«138616_j15023795602200_1_alg».proof.Proof.KernelIdeal.Quant0
import proofs.«138616_j15023795602200_1_alg».proof.Proof.KernelIdeal.Quant1
import proofs.«138616_j15023795602200_1_alg».proof.Proof.KernelIdeal.Matmul

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline's write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline's write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline's write-backs leave, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the last host stretch (the return). -/
abbrev W5 : Dev nD → Valuation τ sig (Elt F) := fun c => StableHlo.after hostOps3 (W4 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back, at what the
    write-backs leave, at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back, at what the
    write-backs leave, at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers at entry and put back, at what the
    write-backs leave, at exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m) c); unfold Pipeline.ΦA
    iintro ⟨Hp, -, Hr⟩
    isplitl [Hr]; · iexact Hr
    iexact Hp
  hout c := by
    rw [Pipeline.ownSems0_none]; refine (hout2 (V3 m) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m),
    .host (hseg hostOps3 hostOps3_sub hostOps3_fresh' (W4 m)) ]
theorem main_run (c : Dev nD) : main (F := F) c = Pipeline.Seg.run (segs m) := (main_chain c).trans (by chain_rfl)

set_option backward.isDefEq.respectTransparency.types false in
/-- Every weakly fair execution of the program terminates without a fault, and the final memory holds every unscoped
    buffer at the last value of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Run

end
-- ==== Proof.KernelIdeal.WholeValues.lean ====
/-
  The fold of the whole run read at the buffers the claims speak of: the two arguments end as launched; the result
  buffer ends at the reshape of what the matrix-product region leaves in its output array; that region finds its
  two inputs at what the two quantise-dequantise regions left; those find the reshaped activations and the weights.
-/
import proofs.«138616_j15023795602200_1_alg».proof.Proof.KernelIdeal.Whole
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W1_of_ne (c : Dev nD) (b : Ref sig .tc) (hb : b ≠ main_v0) : W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W5_of_ne (c : Dev nD) (b : Ref sig .tc) (hb : b ≠ main_v4) : W5 m c (Proc.devRef .tc b) = W4 m c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- The activations end as launched: no item writes them. -/
theorem W5_main_arg0 (c : Dev nD) : W5 m c (Proc.devRef .tc main_arg0) = m ((c : Thread nD τ).loc main_arg0) :=
  (W5_of_ne m c main_arg0 (by decide)).trans <| (W4_of_ne m c main_arg0 (by decide)).trans <|
    (W3_of_ne m c main_arg0 (by decide)).trans <| (W2_of_ne m c main_arg0 (by decide)).trans <| W1_of_ne m c main_arg0 (by decide)

/-- The weights end as launched: region 1 reads them through an input window, nothing writes them. -/
theorem W5_main_arg1 (c : Dev nD) : W5 m c (Proc.devRef .tc main_arg1) = m ((c : Thread nD τ).loc main_arg1) :=
  (W5_of_ne m c main_arg1 (by decide)).trans <| (W4_of_ne m c main_arg1 (by decide)).trans <|
    ((W3_arr m c 0).trans (((dat1 (V2 m) c).arrAt_in 0 rfl _).trans (A_eq1 (V2 m) c 0))).trans <|
    (W2_of_ne m c main_arg1 (by decide)).trans <| W1_of_ne m c main_arg1 (by decide)

/-- Region 1 finds the weights as launched. -/
theorem V2_main_arg1 (c : Dev nD) : V2 m c main_arg1 = m ((c : Thread nD τ).loc main_arg1) :=
  (W2_of_ne m c main_arg1 (by decide)).trans (W1_of_ne m c main_arg1 (by decide))

/-- Region 2 finds its left input at what region 0 left, -/
theorem V3_main_v1 (c : Dev nD) : V3 m c main_v1 = (dat0 (V1 m) c).arrAt 1 cfg0.N :=
  (W3_of_ne m c main_v1 (by decide)).trans (W2_arr m c 1)

/-- and its right input at what region 1 left. -/
theorem V3_main_v2 (c : Dev nD) : V3 m c main_v2 = (dat1 (V2 m) c).arrAt 1 cfg1.N :=
  W3_arr m c 1

/-- What region 2 leaves in its output array. -/
theorem V4_main_v3 (c : Dev nD) : V4 m c main_v3 = (dat2 (V3 m) c).arrAt 2 cfg2.N :=
  W4_arr m c 2

/-- Region 0 finds the activations reshaped to 8192 rows. -/
theorem V1_main_v0 (c : Dev nD) :
    V1 m c main_v0 = shapeCast S8192x4096 (m ((c : Thread nD τ).loc main_arg0)) shapeCasts_S4x2048x4096_S8192x4096 := by
  show StableHlo.after hostOps0 (W0 m c) (Proc.devRef .tc main_v0) = _
  after_results
  rfl

/-- The result buffer ends at the reshape of region 2's output array. -/
theorem W5_main_v4 (c : Dev nD) :
    W5 m c (Proc.devRef .tc main_v4) = shapeCast S4x2048x4096 (V4 m c main_v3) shapeCasts_S8192x4096_S4x2048x4096 := by
  show StableHlo.after hostOps3 (W4 m c) (Proc.devRef .tc main_v4) = _
  after_results
  rfl

/-- Every weakly fair execution terminates without a fault; the result buffer and the two arguments end as the fold says. -/
theorem run_result (ρ : Dev nD → PrngReg) : θ_run defs (onTc (τ := τ) (main (F := F))) ⟨m, fun _ => 0, ρ⟩ (fun r => ∀ c : Dev nD,
      r.2.mem ((c.tc : Thread nD τ).loc main_v4) = shapeCast S4x2048x4096 (V4 m c main_v3) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v4 (by decide))).trans (W5_main_v4 m c),
     (h c _ (mem_uc main_arg0 (by decide))).trans (W5_main_arg0 m c),
     (h c _ (mem_uc main_arg1 (by decide))).trans (W5_main_arg1 m c)⟩) (run_all m ρ)

/-- The frame: every weakly fair execution terminates without a fault and the two arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Run

end
-- ==== Proof.Value.Spec.lean ====
/-
  The mathematics both programs compute, over the extended reals.

  An array of rows of 4096 entries is cut into groups of 32 consecutive entries of a row. A group's scale is
  s = max(a, ε) / 6, where a is the largest magnitude in the group and ε the small positive literal both programs
  share. An entry x of the group is divided by max(s, ε), clipped to [-6, 6], its magnitude rounded to one of the
  eight levels 0, 0.5, 1, 1.5, 2, 3, 4, 6 by a chain of strict comparisons, the sign put back, and the result
  multiplied by s. The program's result is the product of the array so treated (8192 × 4096) with the transpose of
  the weight array so treated (4096 × 4096), a sum of 4096 products per entry.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Spec

open Idealize.ShloMosaic Idealize.ShloMosaic.ValueIdx

/-- The extended real an f32 pattern denotes. -/
abbrev lit (w : BitVec 32) : EReal := Ideal.ofBits .f32 w

/-- The magnitude. -/
def mag (x : EReal) : EReal := max x (-x)

/-- A group's largest magnitude, as the fold of `max` from -∞ over its 32 entries. -/
def gmax (g : Fin 32 → EReal) : EReal :=
  (Finset.univ : Finset (Fin 32)).fold max (lit 0xFF800000#32) (fun j => mag (g j))

/-- A group's scale from its largest magnitude: max(a, ε) / 6. -/
def scaleOf (a : EReal) : EReal := Ideal.div (max a (lit 0x2B8CBCCC#32)) (lit 0x40C00000#32)

/-- The entry divided by max(s, ε) and clipped to [-6, 6]. -/
def clipq (s x : EReal) : EReal :=
  min (lit 0x40C00000#32) (max (lit 0xC0C00000#32) (Ideal.div x (max s (lit 0x2B8CBCCC#32))))

/-- +1 for a non-negative clipped value, -1 otherwise. -/
def sgn (y : EReal) : EReal :=
  Scalar.select (Ideal.cmp .oge y (lit 0x00000000#32)) (lit 0x3F800000#32) (lit 0xBF800000#32)

/-- The level a magnitude is rounded to: 0, 0.5, 1, 1.5, 2, 3, 4 below the thresholds 0.25, 0.75, 1.25, 1.75, 2.5, 3.5, 5, else 6. -/
def level (a : EReal) : EReal :=
  Scalar.select (Ideal.cmp .olt a (lit 0x3E800000#32)) (lit 0x00000000#32)
  (Scalar.select (Ideal.cmp .olt a (lit 0x3F400000#32)) (lit 0x3F000000#32)
  (Scalar.select (Ideal.cmp .olt a (lit 0x3FA00000#32)) (lit 0x3F800000#32)
  (Scalar.select (Ideal.cmp .olt a (lit 0x3FE00000#32)) (lit 0x3FC00000#32)
  (Scalar.select (Ideal.cmp .olt a (lit 0x40200000#32)) (lit 0x40000000#32)
  (Scalar.select (Ideal.cmp .olt a (lit 0x40600000#32)) (lit 0x40400000#32)
  (Scalar.select (Ideal.cmp .olt a (lit 0x40A00000#32)) (lit 0x40800000#32) (lit 0x40C00000#32)))))))

/-- An entry quantised and dequantised in a group of scale `s`. -/
def qdq (s x : EReal) : EReal := sgn (clipq s x) * level (mag (clipq s x)) * s

/-- The column of entry `j` of the group that column `q` lies in. -/
def gcol (q : Fin 4096) (j : Fin 32) : Fin 4096 := ⟨32 * (q.val / 32) + j.val, by have := q.isLt; have := j.isLt; omega⟩

/-- A whole array of `R` rows quantised and dequantised group by group. -/
def qd {R : Nat} (x : (⟨2, ![R, 4096]⟩ : Shape).Idx → EReal) : (⟨2, ![R, 4096]⟩ : Shape).Idx → EReal := fun i =>
  qdq (scaleOf (gmax fun j => x (ix2 (i 0) (gcol (i 1) j)))) (x i)

/-- The product of an M × 4096 array with the transpose of an N × 4096 array. -/
def mmT {M N : Nat} (a : (⟨2, ![M, 4096]⟩ : Shape).Idx → EReal) (b : (⟨2, ![N, 4096]⟩ : Shape).Idx → EReal) :
    (⟨2, ![M, N]⟩ : Shape).Idx → EReal := fun i => ∑ k : Fin 4096, a (ix2 (i 0) k) * b (ix2 (i 1) k)

/-- The whole computation on the activations as an 8192 × 4096 array and the 4096 × 4096 weights. -/
def result (x : (⟨2, ![8192, 4096]⟩ : Shape).Idx → EReal) (w : (⟨2, ![4096, 4096]⟩ : Shape).Idx → EReal) :
    (⟨2, ![8192, 4096]⟩ : Shape).Idx → EReal := mmT (qd x) (qd w)

/-- A sum of 4096 terms is the sum of its first 2048 and its last 2048 terms. -/
theorem sum_halves (f : Fin 4096 → EReal) :
    ∑ k : Fin 4096, f k = (∑ k : Fin 2048, f ⟨k.val, by have := k.isLt; omega⟩) + ∑ k : Fin 2048, f ⟨2048 + k.val, by have := k.isLt; omega⟩ :=
  -- 4096 = 2048 + 2048: the index set splits into the first 2048 indices and the 2048 indices shifted by 2048
  Fin.sum_univ_add (a := 2048) (b := 2048) (fun k => f k)

end Cert.Spec

end
-- ==== Proof.Value.QuantAt.lean ====
/-
  The quantise-dequantise kernels' arithmetic read at one entry of the tile, over the extended reals: the entry of the
  output tile at row p and column q is the specification's `qdq` of the input entry there, at the scale of the 32
  entries of row p whose columns share q's group.
-/
import proofs.«138616_j15023795602200_1_alg».proof.Proof.KernelIdeal.Quant0
import proofs.«138616_j15023795602200_1_alg».proof.Proof.KernelIdeal.Quant1
import proofs.«138616_j15023795602200_1_alg».proof.Proof.Value.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx Idealize.SL.Sem
open Cert.KernelIdeal Cert.KernelIdeal.Gen Cert.KernelIdeal.Run Cert.Spec

namespace QuantAt

/-! ## Places in a row

A row of 4096 entries is 128 groups of 32 consecutive entries: column `32 g + j` is place `j` of group `g`. -/

/-- Column `32 g + j` of a row of 4096 entries: place `j` of the row's group `g`. -/
def col (g : Fin 128) (j : Fin 32) : Fin 4096 := ⟨32 * g.val + j.val, by have := g.isLt; have := j.isLt; omega⟩

/-! ## The four rearrangements, read at one entry -/

section Rearrangements
variable {α : Type}

/-- A row of 4096 entries cut into 128 groups of 32: the entry at (row, group, place) is the row's entry at column
    32 · group + place. -/
theorem split_apply (v : S128x4096.Idx → α) (h : S128x4096.ShapeCasts S128x128x32) (i : S128x128x32.Idx)
    (p : Fin 128) (c : Fin 4096) (hp : (i 0).val = p.val) (hc : 32 * (i 1).val + (i 2).val = c.val) :
    shapeCast S128x128x32 v h i = v (ix2 p c) :=
  shapeCast_apply v h i (ix2 p c) (by
    rw [Shape.rowMajor_val_two, Shape.rowMajor_val_three]
    show p.val * 4096 + c.val = ((i 0).val * 128 + (i 1).val) * 32 + (i 2).val
    omega)

/-- The groups laid side by side again: the entry at (row, column) is the entry at (row, column / 32, column mod 32). -/
theorem join_apply (v : S128x128x32.Idx → α) (h : S128x128x32.ShapeCasts S128x4096) (p : Fin 128) (q : Fin 4096)
    (g : Fin 128) (j : Fin 32) (hq : 32 * g.val + j.val = q.val) :
    shapeCast S128x4096 v h (ix2 p q) = v (ix3 p g j) :=
  shapeCast_apply v h (ix2 p q) (ix3 p g j) (by
    rw [Shape.rowMajor_val_two, Shape.rowMajor_val_three]
    show (p.val * 128 + g.val) * 32 + j.val = p.val * 4096 + q.val
    omega)

/-- One value per group spread over the group's 32 places: the entry at (row, group, place) is the group's value. -/
theorem spread_apply (v : S128x128.Idx → α) (h₁ : S128x128.ShapeCasts S128x128x1) (h₂ : S128x128x1.Broadcasts S128x128x32)
    (p g : Fin 128) (j : Fin 32) :
    broadcastTo S128x128x32 (shapeCast S128x128x1 v h₁) h₂ (ix3 p g j) = v (ix2 p g) :=
  (broadcastTo_apply (shapeCast S128x128x1 v h₁) h₂ (ix3 p g j) (ix3 p g (0 : Fin 1)) fun a =>
    match a with | ⟨0, _⟩ => rfl | ⟨1, _⟩ => rfl | ⟨2, _⟩ => rfl).trans
  (shapeCast_apply v h₁ (ix3 p g (0 : Fin 1)) (ix2 p g) (by
    rw [Shape.rowMajor_val_two, Shape.rowMajor_val_three]
    show p.val * 128 + g.val = (p.val * 128 + g.val) * 1 + 0
    omega))

end Rearrangements

/-- The largest entry of each group: at (row, group), the fold of `max` from -∞ over the group's 32 places. -/
theorem groupMax_apply (v : FVec Ideal S128x128x32 .f32) (h : S128x128x32.Reduces [2] S128x128) (hφ : FKind.Formats .f32)
    (hacc : (0xFF800000#32 : BitVec 32) = FKind.maximumf.neutral .f32 hφ) (p g : Fin 128) :
    multiReduction .maximumf [2] S128x128 v 0xFF800000#32 h hφ hacc (ix2 p g)
      = (Finset.univ : Finset (Fin 32)).fold max (lit 0xFF800000#32) (fun k => v (ix3 p g k)) := by
  refine (Ideal.multiReduction_maximumf_single v _ h hφ hacc (ix2 p g)).trans ?_
  refine Finset.fold_congr fun k _ => ?_
  -- the index the reduction reads at place k of (row, group) is (row, group, k), coordinate by coordinate
  show v (h.lift (ix2 p g) k) = v (ix3 p g k)
  refine congrArg v (funext fun a => Fin.ext ?_)
  match a with | ⟨0, _⟩ => rfl | ⟨1, _⟩ => rfl | ⟨2, _⟩ => rfl

/-! ## The entrywise steps

An entrywise operation on vectors, read at one entry, is the operation on the entries; stated over any vectors. -/

/-- max(·, ε) / 6 at an entry: the scale of a largest magnitude. -/
theorem scale_pt (m : FVec Ideal S128x128 .f32) (i : S128x128.Idx) :
    divf (maximumf m (broadcast S128x128 (Scalar.ofBits .f32 0x2B8CBCCC#32)))
      (broadcast S128x128 (Scalar.ofBits .f32 0x40C00000#32)) i = scaleOf (m i) := rfl

/-- max(·, ε) at an entry. -/
theorem floor_pt (m : FVec Ideal S128x128 .f32) (i : S128x128.Idx) :
    maximumf m (broadcast S128x128 (Scalar.ofBits .f32 0x2B8CBCCC#32)) i = max (m i) (lit 0x2B8CBCCC#32) := rfl

/-- A quotient clipped to [-6, 6] at an entry. -/
theorem clip_pt (a d : FVec Ideal S128x128x32 .f32) (i : S128x128x32.Idx) :
    minimumf (broadcast S128x128x32 (Scalar.ofBits .f32 0x40C00000#32))
      (maximumf (broadcast S128x128x32 (Scalar.ofBits .f32 0xC0C00000#32)) (divf a d)) i
      = min (lit 0x40C00000#32) (max (lit 0xC0C00000#32) (Ideal.div (a i) (d i))) := rfl

/-! ## The two steps that look across a group, over any regrouped tile -/

/-- The largest magnitude of a group: if `v` at (row, group, place) is `x` at the place's column, the reduction of
    |v| at (row, group) is the specification's `gmax` of the group's 32 entries of `x`. -/
theorem gmax_of (x : Vec Ideal S128x4096 .f32) (v : FVec Ideal S128x128x32 .f32) (h : S128x128x32.Reduces [2] S128x128)
    (hφ : FKind.Formats .f32) (hacc : (0xFF800000#32 : BitVec 32) = FKind.maximumf.neutral .f32 hφ) (p g : Fin 128)
    (hv : ∀ k : Fin 32, v (ix3 p g k) = x (ix2 p (col g k))) :
    multiReduction .maximumf [2] S128x128 (absf v) 0xFF800000#32 h hφ hacc (ix2 p g)
      = gmax fun j => x (ix2 p (col g j)) := by
  refine (groupMax_apply _ h hφ hacc p g).trans ?_
  unfold gmax
  refine Finset.fold_congr fun k _ => ?_
  -- a magnitude is max(a, -a)
  show max (v (ix3 p g k)) (-(v (ix3 p g k))) = mag (x (ix2 p (col g k)))
  rw [hv k]; rfl

/-- An entry divided by max(its group's scale, ε) and clipped: `clipq` of the group's scale and the entry. -/
theorem clip_of (a : FVec Ideal S128x128x32 .f32) (s : FVec Ideal S128x128 .f32) (h₁ : S128x128.ShapeCasts S128x128x1)
    (h₂ : S128x128x1.Broadcasts S128x128x32) (p g : Fin 128) (j : Fin 32) :
    minimumf (broadcast S128x128x32 (Scalar.ofBits .f32 0x40C00000#32))
      (maximumf (broadcast S128x128x32 (Scalar.ofBits .f32 0xC0C00000#32))
        (divf a (broadcastTo S128x128x32
          (shapeCast S128x128x1 (maximumf s (broadcast S128x128 (Scalar.ofBits .f32 0x2B8CBCCC#32))) h₁) h₂))) (ix3 p g j)
      = clipq (s (ix2 p g)) (a (ix3 p g j)) := by
  unfold clipq
  refine (clip_pt _ _ _).trans ?_
  rw [spread_apply, floor_pt]

/-! ## Region 0 -/

/-- The input tile regrouped, at (row, group, place). -/
theorem pay2_0 (x : Vec Ideal S128x4096 .f32) (p g : Fin 128) (j : Fin 32) :
    k0_pay2 (F := Ideal) x (ix3 p g j) = x (ix2 p (col g j)) := by
  unfold k0_pay2
  refine (split_apply _ _ (ix3 p g j) p (col g j) rfl rfl).trans ?_
  -- the first rearrangement keeps the shape
  exact congrFun (shapeCast_self x _) _

/-- A group's scale. -/
theorem pay3_0 (x : Vec Ideal S128x4096 .f32) (p g : Fin 128) :
    k0_pay3 (F := Ideal) x (ix2 p g) = scaleOf (gmax fun j => x (ix2 p (col g j))) := by
  unfold k0_pay3
  exact (scale_pt _ (ix2 p g)).trans (congrArg scaleOf (gmax_of x _ _ _ _ p g (pay2_0 x p g)))

/-- An entry divided by its group's scale and clipped. -/
theorem pay4_0 (x : Vec Ideal S128x4096 .f32) (p g : Fin 128) (j : Fin 32) :
    k0_pay4 (F := Ideal) x (ix3 p g j) = clipq (k0_pay3 (F := Ideal) x (ix2 p g)) (x (ix2 p (col g j))) := by
  unfold k0_pay4
  exact (clip_of _ _ _ _ p g j).trans (congrArg (clipq _) (pay2_0 x p g j))

/-- The stored tile at (row, column), for any sign, comparison and scale vectors: sign times level times scale, the
    level chosen by the seven comparisons in turn, read at the column's group and place. -/
theorem pay1_0 (s : FVec Ideal S128x128 .f32) (sg : FVec Ideal S128x128x32 .f32)
    (c1 c2 c3 c4 c5 c6 c7 : IVec S128x128x32 1) (top : Ideal .f32) (l7 : FVec Ideal S128x128x32 .f32)
    (p : Fin 128) (q : Fin 4096) (g : Fin 128) (j : Fin 32) (hq : 32 * g.val + j.val = q.val) :
    k0_pay1 (F := Ideal) s sg c1 c2 c3 c4 c5 c6 c7 top l7 (ix2 p q)
      = sg (ix3 p g j)
        * Scalar.select (c1 (ix3 p g j)) (lit 0x00000000#32)
          (Scalar.select (c2 (ix3 p g j)) (lit 0x3F000000#32)
          (Scalar.select (c3 (ix3 p g j)) (lit 0x3F800000#32)
          (Scalar.select (c4 (ix3 p g j)) (lit 0x3FC00000#32)
          (Scalar.select (c5 (ix3 p g j)) (lit 0x40000000#32)
          (Scalar.select (c6 (ix3 p g j)) (lit 0x40400000#32)
          (Scalar.select (c7 (ix3 p g j)) (l7 (ix3 p g j)) top))))))
        * s (ix2 p g) := by
  unfold k0_pay1
  -- narrowing the format changes no extended real
  refine (truncf_apply (φ := .f32) (ψ := .bf16) _ bitsLt_bf16_f32 (ix2 p q)).trans ?_
  refine (join_apply _ _ p q g j hq).trans ?_
  -- the product is entry by entry; the scale is one value per group
  show sg (ix3 p g j) * _ * broadcastTo S128x128x32 (shapeCast S128x128x1 s _) _ (ix3 p g j) = _
  rw [spread_apply]
  rfl

/-! ## Region 1 -/

/-- The input tile regrouped, at (row, group, place). -/
theorem pay2_1 (x : Vec Ideal S128x4096 .f32) (p g : Fin 128) (j : Fin 32) :
    k1_pay2 (F := Ideal) x (ix3 p g j) = x (ix2 p (col g j)) := by
  unfold k1_pay2
  exact split_apply _ _ (ix3 p g j) p (col g j) rfl rfl

/-- A group's scale. -/
theorem pay3_1 (x : Vec Ideal S128x4096 .f32) (p g : Fin 128) :
    k1_pay3 (F := Ideal) x (ix2 p g) = scaleOf (gmax fun j => x (ix2 p (col g j))) := by
  unfold k1_pay3
  exact (scale_pt _ (ix2 p g)).trans (congrArg scaleOf (gmax_of x _ _ _ _ p g (pay2_1 x p g)))

/-- An entry divided by its group's scale and clipped. -/
theorem pay4_1 (x : Vec Ideal S128x4096 .f32) (p g : Fin 128) (j : Fin 32) :
    k1_pay4 (F := Ideal) x (ix3 p g j) = clipq (k1_pay3 (F := Ideal) x (ix2 p g)) (x (ix2 p (col g j))) := by
  unfold k1_pay4
  exact (clip_of _ _ _ _ p g j).trans (congrArg (clipq _) (pay2_1 x p g j))

/-- The stored tile at (row, column), for any sign, comparison, level and scale vectors: sign times level times scale,
    the level chosen by the seven comparisons in turn, read at the column's group and place. -/
theorem pay1_1 (s : FVec Ideal S128x128 .f32) (sg : FVec Ideal S128x128x32 .f32)
    (c1 c2 c3 c4 c5 c6 c7 : IVec S128x128x32 1) (l7 l8 : FVec Ideal S128x128x32 .f32)
    (p : Fin 128) (q : Fin 4096) (g : Fin 128) (j : Fin 32) (hq : 32 * g.val + j.val = q.val) :
    k1_pay1 (F := Ideal) s sg c1 c2 c3 c4 c5 c6 c7 l7 l8 (ix2 p q)
      = sg (ix3 p g j)
        * Scalar.select (c1 (ix3 p g j)) (lit 0x00000000#32)
          (Scalar.select (c2 (ix3 p g j)) (lit 0x3F000000#32)
          (Scalar.select (c3 (ix3 p g j)) (lit 0x3F800000#32)
          (Scalar.select (c4 (ix3 p g j)) (lit 0x3FC00000#32)
          (Scalar.select (c5 (ix3 p g j)) (lit 0x40000000#32)
          (Scalar.select (c6 (ix3 p g j)) (lit 0x40400000#32)
          (Scalar.select (c7 (ix3 p g j)) (l7 (ix3 p g j)) (l8 (ix3 p g j))))))))
        * s (ix2 p g) := by
  unfold k1_pay1
  -- narrowing the format changes no extended real
  refine (truncf_apply (φ := .f32) (ψ := .bf16) _ bitsLt_bf16_f32 (ix2 p q)).trans ?_
  refine (join_apply _ _ p q g j hq).trans ?_
  -- the product is entry by entry; the scale is one value per group
  show sg (ix3 p g j) * _ * broadcastTo S128x128x32 (shapeCast S128x128x1 s _) _ (ix3 p g j) = _
  rw [spread_apply]
  rfl

end QuantAt

theorem quant0_apply (x : Vec Ideal S128x4096 .f32) (p : Fin 128) (q : Fin 4096) :
    (quant0 (F := Ideal) x (ix2 p q) : EReal) = qdq (scaleOf (gmax fun j => x (ix2 p (gcol q j)))) (x (ix2 p q)) := by
  -- column q is place q mod 32 of group q / 32
  have hq : 32 * (q.val / 32) + q.val % 32 = q.val := Nat.div_add_mod q.val 32
  have hg : q.val / 32 < 128 := by have := q.isLt; omega
  have hcol : QuantAt.col ⟨q.val / 32, hg⟩ ⟨q.val % 32, Nat.mod_lt _ (by decide)⟩ = q := Fin.ext hq
  unfold quant0
  refine (QuantAt.pay1_0 _ _ _ _ _ _ _ _ _ _ _ p q ⟨q.val / 32, hg⟩ ⟨q.val % 32, Nat.mod_lt _ (by decide)⟩ hq).trans ?_
  -- the sign and the seven comparisons are entrywise in the clipped entry and its magnitude
  show sgn (k0_pay4 (F := Ideal) x (ix3 p _ _)) * level (mag (k0_pay4 (F := Ideal) x (ix3 p _ _))) * k0_pay3 (F := Ideal) x (ix2 p _) = _
  rw [QuantAt.pay4_0, QuantAt.pay3_0, hcol]
  -- the group's columns 32 (q / 32) + j are the specification's
  rfl

theorem quant1_apply (x : Vec Ideal S128x4096 .f32) (p : Fin 128) (q : Fin 4096) :
    (quant1 (F := Ideal) x (ix2 p q) : EReal) = qdq (scaleOf (gmax fun j => x (ix2 p (gcol q j)))) (x (ix2 p q)) := by
  -- column q is place q mod 32 of group q / 32
  have hq : 32 * (q.val / 32) + q.val % 32 = q.val := Nat.div_add_mod q.val 32
  have hg : q.val / 32 < 128 := by have := q.isLt; omega
  have hcol : QuantAt.col ⟨q.val / 32, hg⟩ ⟨q.val % 32, Nat.mod_lt _ (by decide)⟩ = q := Fin.ext hq
  unfold quant1
  refine (QuantAt.pay1_1 _ _ _ _ _ _ _ _ _ _ _ p q ⟨q.val / 32, hg⟩ ⟨q.val % 32, Nat.mod_lt _ (by decide)⟩ hq).trans ?_
  -- the sign and the seven comparisons are entrywise in the clipped entry and its magnitude
  show sgn (k1_pay4 (F := Ideal) x (ix3 p _ _)) * level (mag (k1_pay4 (F := Ideal) x (ix3 p _ _))) * k1_pay3 (F := Ideal) x (ix2 p _) = _
  rw [QuantAt.pay4_1, QuantAt.pay3_1, hcol]
  -- the group's columns 32 (q / 32) + j are the specification's
  rfl

end Cert.KernelIdeal.Val

end
-- ==== Proof.Value.QuantFinal.lean ====
/-
  What the two quantise-dequantise regions leave in their output arrays: tile t of the output is the kernel's
  arithmetic of tile t of the input (rows 128 t … 128 t + 127), the tiles cover the array, and a group of 32 columns
  never leaves its row, so the whole output array is the specification's `qd` of the whole input array.
-/
import proofs.«138616_j15023795602200_1_alg».proof.Proof.KernelIdeal.Quant0
import proofs.«138616_j15023795602200_1_alg».proof.Proof.KernelIdeal.Quant1
import proofs.«138616_j15023795602200_1_alg».proof.Proof.Value.Spec
import Idealize.ShloMosaic.Lib.ValueIdx
import Idealize.ShloMosaic.Lib.Pipeline.Value

set_option maxRecDepth 16384

noncomputable section

open scoped BigOperators

namespace Cert.KernelIdeal.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Run Cert.Spec

variable (V : (c : Dev nD) → (b : Ref sig .tc) → Buf (Elt Ideal) ((c : Thread nD τ).loc b))

/-- Region 0's input array and region 1's input array, as the regions find them. -/
abbrev xin (c : Dev nD) : Vec Ideal S8192x4096 .f32 := V c main_v0
abbrev win (c : Dev nD) : Vec Ideal S4096x4096 .f32 := V c main_arg1

/-- The tile function read at an entry, as the specification's `qdq` at the scale of the entry's group: what `final0` and
    `final1` take of the kernels' arithmetic. -/
def TileSpec (f : Vec Ideal S128x4096 .f32 → Vec Ideal S128x4096 .bf16) : Prop :=
  ∀ (x : Vec Ideal S128x4096 .f32) (p : Fin 128) (q : Fin 4096),
    (f x (ix2 p q) : EReal) = qdq (scaleOf (gmax fun j => x (ix2 p (gcol q j)))) (x (ix2 p q))

/-! ## A tile against the array it is cut from -/

/-- A tile whose row `p` is row `r` of an array of rows of 4096 entries: the tile function's entry (p, q) is the array's
    `qd` at (r, q). The group of column q lies in row p of the tile and in row r of the array, at the same 32 columns. -/
theorem tile_entry {R : Nat} {f : Vec Ideal S128x4096 .f32 → Vec Ideal S128x4096 .bf16} (hq : TileSpec f)
    (X : (⟨2, ![R, 4096]⟩ : Shape).Idx → EReal) (x : Vec Ideal S128x4096 .f32) (p : Fin 128) (q : Fin 4096) (r : Fin R)
    (hx : ∀ q' : Fin 4096, (x (ix2 p q') : EReal) = X (ix2 r q')) :
    (f x (ix2 p q) : EReal) = qd X (ix2 r q) := by
  -- the 32 entries of the group, read in the tile, are the array's
  have hg : (fun j : Fin 32 => (x (ix2 p (gcol q j)) : EReal)) = fun j => X (ix2 r (gcol q j)) := funext fun j => hx (gcol q j)
  rw [hq x p q, hg, hx q]
  rfl

/-! ## Region 0: 64 tiles of 128 rows of an 8192 × 4096 array -/

/-- The grid of region 0 has 64 points. -/
theorem points0 : cfg0.N = 64 := rfl

/-- The printed index maps over the grid: at point t the input's block and the output's block are both block (t, 0). -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row p of tile t is row 128 t + p of the array. -/
def row0 (t : Fin cfg0.N) (p : Fin 128) : Fin 8192 := ⟨128 * t.val + p.val, by have ht : t.val < 64 := t.isLt; omega⟩

/-- The input block at point t, entry (p, q), is the input array's entry (128 t + p, q). -/
theorem iblk0_entry (c : Dev nD) (t : Fin cfg0.N) (p : Fin 128) (q : Fin 4096) :
    ((iblk0 (F := Ideal) V c 0 t : Vec Ideal S128x4096 .f32) (ix2 p q) : EReal) = xin V c (ix2 (row0 t p) q) := by
  obtain ⟨e0, e1, -, -⟩ := blockIdx0 t
  unfold iblk0
  rw [View.read_apply]
  show V c main_v0 _ = V c main_v0 _
  congr 1
  funext a
  apply Fin.ext
  match a with
  | ⟨0, _⟩ => show win0_0.index t (0 : Fin 2) * 128 + 1 * p.val = 128 * t.val + p.val; omega
  | ⟨1, _⟩ => show win0_0.index t (1 : Fin 2) * 4096 + 1 * q.val = q.val; omega

/-- The output tile at point t, entry (p, q), is `qd` of the input array at (128 t + p, q). -/
theorem quant0_entry (hq : TileSpec (quant0 (F := Ideal))) (c : Dev nD) (t : Fin cfg0.N) (p : Fin 128) (q : Fin 4096) :
    (quant0 (F := Ideal) (iblk0 (F := Ideal) V c 0 t) (ix2 p q) : EReal) = qd (R := 8192) (xin V c) (ix2 (row0 t p) q) :=
  tile_entry hq (xin V c) (iblk0 (F := Ideal) V c 0 t) p q (row0 t p) (fun q' => iblk0_entry V c t p q')

/-- Where the output's block at point t puts its entry (p, q): at (128 t + p, q) of the output array. -/
theorem oblk0_emb (t : Fin cfg0.N) (p : Fin 128) (q : Fin 4096) :
    ((cfg0.win 1).blk t).view.emb (ix2 p q) = (ix2 (row0 t p) q : S8192x4096.Idx) := by
  obtain ⟨-, -, e0, e1⟩ := blockIdx0 t
  funext a
  apply Fin.ext
  match a with
  | ⟨0, _⟩ => show win0_1.index t (0 : Fin 2) * 128 + 1 * p.val = 128 * t.val + p.val; omega
  | ⟨1, _⟩ => show win0_1.index t (1 : Fin 2) * 4096 + 1 * q.val = q.val; omega

/-- The output tile at point t, at an entry y, is `qd` of the input array where the output's block puts y. -/
theorem quant0_at (hq : TileSpec (quant0 (F := Ideal))) (c : Dev nD) (t : Fin cfg0.N) (y : S128x4096.Idx) :
    (quant0 (F := Ideal) (iblk0 (F := Ideal) V c 0 t) y : EReal) = qd (R := 8192) (xin V c) (((cfg0.win 1).blk t).view.emb y) := by
  obtain ⟨p, q, rfl⟩ : ∃ (p : Fin 128) (q : Fin 4096), y = ix2 p q := ⟨y 0, y 1, eq_ix2 y⟩
  rw [oblk0_emb]
  exact quant0_entry V hq c t p q

/-- What point t writes back is block t of `qd` of the input array. -/
theorem flushed0_eq (hq : TileSpec (quant0 (F := Ideal))) (c : Dev nD) (t : Fin cfg0.N) :
    (dat0 (F := Ideal) V c).flushed 1 t = ((cfg0.win 1).blk t).view.read (Elt Ideal) (qd (R := 8192) (xin V c)) := by
  show (cfg0.win 1).cut (grid0.coords t) ((dat0 (F := Ideal) V c).after 1 t) = _
  rw [after0_1, out0_1_eq]
  funext j
  show (quant0 (F := Ideal) (iblk0 (F := Ideal) V c 0 t) j : EReal) = qd (R := 8192) (xin V c) (((cfg0.win 1).blk t).view.emb j)
  exact quant0_at V hq c t j

/-- An index of the output array is in point t's block iff each coordinate is in the block's range on its axis. -/
theorem mem_oblk0 (t : Fin cfg0.N) (i : S8192x4096.Idx) :
    i ∈ ((cfg0.win 1).blk t).view.set ↔ ∀ a : Fin 2, win0_1.index t a * S128x4096.size a ≤ (i a).val ∧ (i a).val < win0_1.index t a * S128x4096.size a + S128x4096.size a := by
  show i ∈ ((View.whole main_v1).slice (win0_1.rect t)).set ↔ _
  rw [View.set_slice_whole, Rect.mem_set_unit]
  exact Iff.rfl

/-- The tiles cover the output array: row r is in tile r / 128, and every tile has all 4096 columns. -/
theorem cover0 (i : S8192x4096.Idx) : ∃ t : Fin cfg0.N, (cfg0.win 1).flush t = true ∧ i ∈ ((cfg0.win 1).blk t).view.set := by
  have hi0 : (i 0).val < 8192 := (i 0).isLt
  have hi1 : (i 1).val < 4096 := (i 1).isLt
  have hlt : (i 0).val / 128 < cfg0.N := by rw [points0]; omega
  obtain ⟨-, -, e0, e1⟩ := blockIdx0 ⟨(i 0).val / 128, hlt⟩
  have e0' : win0_1.index ⟨(i 0).val / 128, hlt⟩ (0 : Fin 2) = (i 0).val / 128 := e0
  refine ⟨⟨(i 0).val / 128, hlt⟩, flush0_1 _, ?_⟩
  rw [mem_oblk0]
  intro a
  match a with
  | ⟨0, _⟩ => show win0_1.index ⟨(i 0).val / 128, hlt⟩ (0 : Fin 2) * 128 ≤ (i 0).val ∧ (i 0).val < win0_1.index ⟨(i 0).val / 128, hlt⟩ (0 : Fin 2) * 128 + 128; omega
  | ⟨1, _⟩ => show win0_1.index ⟨(i 0).val / 128, hlt⟩ (1 : Fin 2) * 4096 ≤ (i 1).val ∧ (i 1).val < win0_1.index ⟨(i 0).val / 128, hlt⟩ (1 : Fin 2) * 4096 + 4096; omega

theorem final0 (hq : TileSpec (quant0 (F := Ideal))) (c : Dev nD) :
    ((dat0 (F := Ideal) V c).arrAt 1 cfg0.N : Vec Ideal S8192x4096 .bf16) = qd (R := 8192) (xin V c) :=
  (dat0 (F := Ideal) V c).arrAt_eq_of_cover 1 (qd (R := 8192) (xin V c)) (fun t _ => flushed0_eq V hq c t) cover0

/-! ## Region 1: 32 tiles of 128 rows of a 4096 × 4096 array -/

/-- The grid of region 1 has 32 points. -/
theorem points1 : cfg1.N = 32 := rfl

/-- The printed index maps over the grid: at point t the input's block and the output's block are both block (t, 0). -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row p of tile t is row 128 t + p of the array. -/
def row1 (t : Fin cfg1.N) (p : Fin 128) : Fin 4096 := ⟨128 * t.val + p.val, by have ht : t.val < 32 := t.isLt; omega⟩

/-- The input block at point t, entry (p, q), is the weight array's entry (128 t + p, q). -/
theorem iblk1_entry (c : Dev nD) (t : Fin cfg1.N) (p : Fin 128) (q : Fin 4096) :
    ((iblk1 (F := Ideal) V c 0 t : Vec Ideal S128x4096 .f32) (ix2 p q) : EReal) = win V c (ix2 (row1 t p) q) := by
  obtain ⟨e0, e1, -, -⟩ := blockIdx1 t
  unfold iblk1
  rw [View.read_apply]
  show V c main_arg1 _ = V c main_arg1 _
  congr 1
  funext a
  apply Fin.ext
  match a with
  | ⟨0, _⟩ => show win1_0.index t (0 : Fin 2) * 128 + 1 * p.val = 128 * t.val + p.val; omega
  | ⟨1, _⟩ => show win1_0.index t (1 : Fin 2) * 4096 + 1 * q.val = q.val; omega

/-- The output tile at point t, entry (p, q), is `qd` of the weight array at (128 t + p, q). -/
theorem quant1_entry (hq : TileSpec (quant1 (F := Ideal))) (c : Dev nD) (t : Fin cfg1.N) (p : Fin 128) (q : Fin 4096) :
    (quant1 (F := Ideal) (iblk1 (F := Ideal) V c 0 t) (ix2 p q) : EReal) = qd (R := 4096) (win V c) (ix2 (row1 t p) q) :=
  tile_entry hq (win V c) (iblk1 (F := Ideal) V c 0 t) p q (row1 t p) (fun q' => iblk1_entry V c t p q')

/-- Where the output's block at point t puts its entry (p, q): at (128 t + p, q) of the output array. -/
theorem oblk1_emb (t : Fin cfg1.N) (p : Fin 128) (q : Fin 4096) :
    ((cfg1.win 1).blk t).view.emb (ix2 p q) = (ix2 (row1 t p) q : S4096x4096.Idx) := by
  obtain ⟨-, -, e0, e1⟩ := blockIdx1 t
  funext a
  apply Fin.ext
  match a with
  | ⟨0, _⟩ => show win1_1.index t (0 : Fin 2) * 128 + 1 * p.val = 128 * t.val + p.val; omega
  | ⟨1, _⟩ => show win1_1.index t (1 : Fin 2) * 4096 + 1 * q.val = q.val; omega

/-- The output tile at point t, at an entry y, is `qd` of the weight array where the output's block puts y. -/
theorem quant1_at (hq : TileSpec (quant1 (F := Ideal))) (c : Dev nD) (t : Fin cfg1.N) (y : S128x4096.Idx) :
    (quant1 (F := Ideal) (iblk1 (F := Ideal) V c 0 t) y : EReal) = qd (R := 4096) (win V c) (((cfg1.win 1).blk t).view.emb y) := by
  obtain ⟨p, q, rfl⟩ : ∃ (p : Fin 128) (q : Fin 4096), y = ix2 p q := ⟨y 0, y 1, eq_ix2 y⟩
  rw [oblk1_emb]
  exact quant1_entry V hq c t p q

/-- What point t writes back is block t of `qd` of the weight array. -/
theorem flushed1_eq (hq : TileSpec (quant1 (F := Ideal))) (c : Dev nD) (t : Fin cfg1.N) :
    (dat1 (F := Ideal) V c).flushed 1 t = ((cfg1.win 1).blk t).view.read (Elt Ideal) (qd (R := 4096) (win V c)) := by
  show (cfg1.win 1).cut (grid1.coords t) ((dat1 (F := Ideal) V c).after 1 t) = _
  rw [after1_1, out1_1_eq]
  funext j
  show (quant1 (F := Ideal) (iblk1 (F := Ideal) V c 0 t) j : EReal) = qd (R := 4096) (win V c) (((cfg1.win 1).blk t).view.emb j)
  exact quant1_at V hq c t j

/-- An index of the output array is in point t's block iff each coordinate is in the block's range on its axis. -/
theorem mem_oblk1 (t : Fin cfg1.N) (i : S4096x4096.Idx) :
    i ∈ ((cfg1.win 1).blk t).view.set ↔ ∀ a : Fin 2, win1_1.index t a * S128x4096.size a ≤ (i a).val ∧ (i a).val < win1_1.index t a * S128x4096.size a + S128x4096.size a := by
  show i ∈ ((View.whole main_v2).slice (win1_1.rect t)).set ↔ _
  rw [View.set_slice_whole, Rect.mem_set_unit]
  exact Iff.rfl

/-- The tiles cover the output array: row r is in tile r / 128, and every tile has all 4096 columns. -/
theorem cover1 (i : S4096x4096.Idx) : ∃ t : Fin cfg1.N, (cfg1.win 1).flush t = true ∧ i ∈ ((cfg1.win 1).blk t).view.set := by
  have hi0 : (i 0).val < 4096 := (i 0).isLt
  have hi1 : (i 1).val < 4096 := (i 1).isLt
  have hlt : (i 0).val / 128 < cfg1.N := by rw [points1]; omega
  obtain ⟨-, -, e0, e1⟩ := blockIdx1 ⟨(i 0).val / 128, hlt⟩
  have e0' : win1_1.index ⟨(i 0).val / 128, hlt⟩ (0 : Fin 2) = (i 0).val / 128 := e0
  refine ⟨⟨(i 0).val / 128, hlt⟩, flush1_1 _, ?_⟩
  rw [mem_oblk1]
  intro a
  match a with
  | ⟨0, _⟩ => show win1_1.index ⟨(i 0).val / 128, hlt⟩ (0 : Fin 2) * 128 ≤ (i 0).val ∧ (i 0).val < win1_1.index ⟨(i 0).val / 128, hlt⟩ (0 : Fin 2) * 128 + 128; omega
  | ⟨1, _⟩ => show win1_1.index ⟨(i 0).val / 128, hlt⟩ (1 : Fin 2) * 4096 ≤ (i 1).val ∧ (i 1).val < win1_1.index ⟨(i 0).val / 128, hlt⟩ (1 : Fin 2) * 4096 + 4096; omega

theorem final1 (hq : TileSpec (quant1 (F := Ideal))) (c : Dev nD) :
    ((dat1 (F := Ideal) V c).arrAt 1 cfg1.N : Vec Ideal S4096x4096 .bf16) = qd (R := 4096) (win V c) :=
  (dat1 (F := Ideal) V c).arrAt_eq_of_cover 1 (qd (R := 4096) (win V c)) (fun t _ => flushed1_eq V hq c t) cover1

end Cert.KernelIdeal.Val

end
-- ==== Proof.Value.MatmulAt.lean ====
/-
  One accumulation step of the matrix-product kernel read at one entry, over the extended reals: the accumulator's
  entry plus the sum over the 2048 contracted columns of the products of the two tiles' entries; and the reset value
  is zero everywhere.
-/
import proofs.«138616_j15023795602200_1_alg».proof.Proof.KernelIdeal.Matmul
import proofs.«138616_j15023795602200_1_alg».proof.Proof.Value.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx Idealize.SL.Sem
open Cert.KernelIdeal Cert.KernelIdeal.Gen Cert.KernelIdeal.Run Cert.Spec

theorem mmZero_apply (i : S1024x1024.Idx) : (mmZero (F := Ideal) i : EReal) = 0 := by
  unfold mmZero k2_pay1
  -- the identity reshape of the constant tile whose every entry is the f32 pattern of zero
  rw [shapeCast_self, broadcast_apply]
  exact Ideal.ofBits_zero_f32

/-! ## The matrix product's operand indices

The product contracts axis 1 of both tiles: at the output entry (p, q) and the contraction index k the left operand is
read at (p, k) and the right operand at (q, k). Axis by axis: -/

theorem lhs_mm_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_mm_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs_mm_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_mm_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

theorem mmStep_apply (acc : Vec Ideal S1024x1024 .f32) (x w : Vec Ideal S1024x2048 .bf16) (p q : Fin 1024) :
    (mmStep (F := Ideal) acc x w (ix2 p q) : EReal) = acc (ix2 p q) + ∑ k : Fin 2048, x (ix2 p k) * w (ix2 q k) := by
  unfold mmStep k2_pay2
  -- the three reshapes are identities; the sum of two tiles is entrywise
  rw [shapeCast_self, shapeCast_self, shapeCast_self, addf_apply]
  simp only [matmul]
  -- into the zero tile the product's entry is the sum over the contraction index; that index is its one coordinate
  rw [Ideal.matmul_constant_zero_apply, ← Equiv.sum_comp (ValueIdx.contrEquiv1 dot_S1024x2048_S1024x2048_S1024x1024_1_1_0_0_n_n 2048 rfl rfl).symm]
  refine congrArg (acc (ix2 p q) + ·) (Finset.sum_congr rfl fun k _ => ?_)
  have hk := ValueIdx.contrEquiv1_symm_val dot_S1024x2048_S1024x2048_S1024x1024_1_1_0_0_n_n 2048 rfl rfl k
  have el : dot_S1024x2048_S1024x2048_S1024x1024_1_1_0_0_n_n.lhsIdx (ix2 p q) ((ValueIdx.contrEquiv1 dot_S1024x2048_S1024x2048_S1024x1024_1_1_0_0_n_n 2048 rfl rfl).symm k) = ix2 p k := funext fun a => Fin.ext (by
    match a with
    | ⟨0, _⟩ => exact lhs_mm_0 _ _
    | ⟨1, _⟩ => exact (lhs_mm_1 _ _).trans hk)
  have er : dot_S1024x2048_S1024x2048_S1024x1024_1_1_0_0_n_n.rhsIdx (ix2 p q) ((ValueIdx.contrEquiv1 dot_S1024x2048_S1024x2048_S1024x1024_1_1_0_0_n_n 2048 rfl rfl).symm k) = ix2 q k := funext fun a => Fin.ext (by
    match a with
    | ⟨0, _⟩ => exact rhs_mm_0 _ _
    | ⟨1, _⟩ => exact (rhs_mm_1 _ _).trans hk)
  rw [el, er]

end Cert.KernelIdeal.Val

end
-- ==== Proof.Value.MatmulFinal.lean ====
/-
  What the matrix-product region leaves in its output array. Grid position t = (i, j, k) (t = 8 i + 2 j + k) reads
  rows 1024 i … of the left array and rows 1024 j … of the right array at columns 2048 k …; at k = 1 the accumulator
  holds zero plus the first half of the contraction plus the second half, which is written back as tile (i, j) of the
  output; the 32 tiles cover the output, so every entry of it is the sum of all 4096 products.
-/
import proofs.«138616_j15023795602200_1_alg».proof.Proof.KernelIdeal.Matmul
import proofs.«138616_j15023795602200_1_alg».proof.Proof.Value.Spec
import Idealize.ShloMosaic.Lib.ValueIdx
import Idealize.ShloMosaic.Lib.Pipeline.Value

set_option maxRecDepth 16384

noncomputable section

open scoped BigOperators

namespace Cert.KernelIdeal.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Run Cert.Spec

variable (V : (c : Dev nD) → (b : Ref sig .tc) → Buf (Elt Ideal) ((c : Thread nD τ).loc b))

/-- The region's two input arrays, as it finds them. -/
abbrev lhs (c : Dev nD) : Vec Ideal S8192x4096 .bf16 := V c main_v1
abbrev rhs (c : Dev nD) : Vec Ideal S4096x4096 .bf16 := V c main_v2

/-- One accumulation step and the reset value read at an entry: what `final2` takes of the kernel's arithmetic. -/
def StepSpec : Prop :=
  (∀ i : S1024x1024.Idx, (mmZero (F := Ideal) i : EReal) = 0) ∧
  ∀ (acc : Vec Ideal S1024x1024 .f32) (x w : Vec Ideal S1024x2048 .bf16) (p q : Fin 1024),
    (mmStep (F := Ideal) acc x w (ix2 p q) : EReal) = acc (ix2 p q) + ∑ k : Fin 2048, x (ix2 p k) * w (ix2 q k)

/-! ## The index maps in closed form

Position t of the 8 × 4 × 2 grid, in row-major order, is (i, j, k) = (t / 8, t / 2 mod 4, t mod 2). The left window's block
index is (i, k), the right window's (j, k), the output window's (i, j). -/

theorem blockIndex : ∀ t : Fin cfg2.N,
    win2_0.index t (0 : Fin 2) = t.val / 8 ∧ win2_0.index t (1 : Fin 2) = t.val % 2
    ∧ win2_1.index t (0 : Fin 2) = t.val / 2 % 4 ∧ win2_1.index t (1 : Fin 2) = t.val % 2
    ∧ win2_2.index t (0 : Fin 2) = t.val / 8 ∧ win2_2.index t (1 : Fin 2) = t.val / 2 % 4 :=
  (by decide +kernel : ∀ t : Fin grid2.N, _)

/-! ## The blocks as parts of the arrays -/

/-- Entry (p, k) of the left window's block at position t is entry (1024 i + p, 2048 k' + k) of the left array, (i, k') the
    block's index. -/
theorem lhs_block (c : Dev nD) (t : Fin cfg2.N) (p : Fin 1024) (k : Fin 2048) (r : Fin 8192) (s : Fin 4096)
    (hr : r.val = win2_0.index t (0 : Fin 2) * 1024 + p.val) (hs : s.val = win2_0.index t (1 : Fin 2) * 2048 + k.val) :
    (iblk2 (F := Ideal) V c 0 t (ix2 p k) : EReal) = lhs V c (ix2 r s) := by
  unfold iblk2
  rw [View.read_apply]
  show V c main_v1 _ = V c main_v1 _
  congr 1
  funext a
  apply Fin.ext
  match a with
  | ⟨0, _⟩ => show win2_0.index t (0 : Fin 2) * 1024 + 1 * p.val = r.val; omega
  | ⟨1, _⟩ => show win2_0.index t (1 : Fin 2) * 2048 + 1 * k.val = s.val; omega

/-- Entry (q, k) of the right window's block at position t is entry (1024 j + q, 2048 k' + k) of the right array, (j, k') the
    block's index. -/
theorem rhs_block (c : Dev nD) (t : Fin cfg2.N) (q : Fin 1024) (k : Fin 2048) (r : Fin 4096) (s : Fin 4096)
    (hr : r.val = win2_1.index t (0 : Fin 2) * 1024 + q.val) (hs : s.val = win2_1.index t (1 : Fin 2) * 2048 + k.val) :
    (iblk2 (F := Ideal) V c 1 t (ix2 q k) : EReal) = rhs V c (ix2 r s) := by
  unfold iblk2
  rw [View.read_apply]
  show V c main_v2 _ = V c main_v2 _
  congr 1
  funext a
  apply Fin.ext
  match a with
  | ⟨0, _⟩ => show win2_1.index t (0 : Fin 2) * 1024 + 1 * q.val = r.val; omega
  | ⟨1, _⟩ => show win2_1.index t (1 : Fin 2) * 2048 + 1 * k.val = s.val; omega

/-! ## The accumulator at the second point of a tile -/

/-- At an odd position t = (i, j, 1) the accumulator's entry (p, q) is zero plus the 2048 products of the first halves of
    row 1024 i + p of the left array and row 1024 j + q of the right array (added at t - 1 = (i, j, 0)) plus the 2048
    products of their second halves (added at t): all 4096 products, the entry of the product at those two rows. -/
theorem acc_odd_entry (hs : StepSpec) (c : Dev nD) (t : Fin cfg2.N) (ht : t.val % 2 = 1) (p q : Fin 1024)
    (i : S8192x4096.Idx) (hp : (i 0).val = 1024 * (t.val / 8) + p.val) (hq : (i 1).val = 1024 * (t.val / 2 % 4) + q.val) :
    (acc2 (F := Ideal) V c t.val t.isLt (ix2 p q) : EReal) = mmT (M := 8192) (N := 4096) (lhs V c) (rhs V c) i := by
  obtain ⟨r, s, rfl⟩ : ∃ (r : Fin 8192) (s : Fin 4096), i = ix2 r s := ⟨i 0, i 1, eq_ix2 i⟩
  have hr : r.val = 1024 * (t.val / 8) + p.val := hp
  have hs' : s.val = 1024 * (t.val / 2 % 4) + q.val := hq
  have hlt : t.val - 1 < cfg2.N := Nat.lt_of_le_of_lt (Nat.sub_le _ _) t.isLt
  have e : acc2 (F := Ideal) V c (t.val - 1) hlt
      = mmStep mmZero (iblk2 V c 0 ⟨t.val - 1, hlt⟩) (iblk2 V c 1 ⟨t.val - 1, hlt⟩) :=
    acc2_even V c ⟨t.val - 1, hlt⟩ (by dsimp only; omega)
  have a0 : win2_0.index ⟨t.val - 1, hlt⟩ (0 : Fin 2) = (t.val - 1) / 8 := (blockIndex ⟨t.val - 1, hlt⟩).1
  have a1 : win2_0.index ⟨t.val - 1, hlt⟩ (1 : Fin 2) = (t.val - 1) % 2 := (blockIndex ⟨t.val - 1, hlt⟩).2.1
  have b0 : win2_1.index ⟨t.val - 1, hlt⟩ (0 : Fin 2) = (t.val - 1) / 2 % 4 := (blockIndex ⟨t.val - 1, hlt⟩).2.2.1
  have b1 : win2_1.index ⟨t.val - 1, hlt⟩ (1 : Fin 2) = (t.val - 1) % 2 := (blockIndex ⟨t.val - 1, hlt⟩).2.2.2.1
  obtain ⟨a0', a1', b0', b1', -, -⟩ := blockIndex t
  rw [acc2_odd V c t ht, e, hs.2, hs.2, hs.1, zero_add]
  show _ = ∑ k : Fin 4096, lhs V c (ix2 r k) * rhs V c (ix2 s k)
  rw [sum_halves]
  refine congrArg₂ (· + ·) (Finset.sum_congr rfl fun k _ => ?_) (Finset.sum_congr rfl fun k _ => ?_)
  · exact congrArg₂ (· * ·)
      (lhs_block V c ⟨t.val - 1, hlt⟩ p k r ⟨k.val, by have := k.isLt; omega⟩ (by omega) (by dsimp only; omega))
      (rhs_block V c ⟨t.val - 1, hlt⟩ q k s ⟨k.val, by have := k.isLt; omega⟩ (by omega) (by dsimp only; omega))
  · exact congrArg₂ (· * ·)
      (lhs_block V c t p k r ⟨2048 + k.val, by have := k.isLt; omega⟩ (by omega) (by dsimp only; omega))
      (rhs_block V c t q k s ⟨2048 + k.val, by have := k.isLt; omega⟩ (by omega) (by dsimp only; omega))

/-! ## What an odd position writes back, and where -/

/-- The tile written back at a position is the product's tile there. -/
theorem flushed_tile (hs : StepSpec) (c : Dev nD) (t : Fin cfg2.N) (hf : (cfg2.win 2).flush t = true) :
    (dat2 (F := Ideal) V c).flushed 2 t
      = ((cfg2.win 2).blk t).view.read (Elt Ideal) (mmT (M := 8192) (N := 4096) (lhs V c) (rhs V c)) := by
  have ht : t.val % 2 = 1 := (flush2_2 t).mp hf
  obtain ⟨-, -, -, -, e0, e1⟩ := blockIndex t
  show (cfg2.win 2).cut (grid2.coords t) ((dat2 V c).after 2 t) = _
  rw [after2_2]
  funext j
  have hj0 : (j 0).val < 1024 := (j 0).isLt
  have hj1 : (j 1).val < 1024 := (j 1).isLt
  have hy : (cfg2.win 2).xinj (grid2.coords t) j = ix2 (⟨(j 0).val, hj0⟩ : Fin 1024) (⟨(j 1).val, hj1⟩ : Fin 1024) := by
    funext a
    match a with
    | ⟨0, _⟩ => rfl
    | ⟨1, _⟩ => rfl
  rw [View.read_apply]
  show acc2 V c t.val t.isLt ((cfg2.win 2).xinj (grid2.coords t) j) = mmT (M := 8192) (N := 4096) (lhs V c) (rhs V c) (((cfg2.win 2).blk t).view.emb j)
  rw [hy]
  refine acc_odd_entry V hs c t ht _ _ _ ?_ ?_
  · show win2_2.index t (0 : Fin 2) * 1024 + 1 * (j 0).val = 1024 * (t.val / 8) + (j 0).val
    omega
  · show win2_2.index t (1 : Fin 2) * 1024 + 1 * (j 1).val = 1024 * (t.val / 2 % 4) + (j 1).val
    omega

/-- An entry of the output array lies in the tile of position t iff each coordinate lies in the tile's range. -/
theorem mem_tile (t : Fin cfg2.N) (i : S8192x4096.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v3).slice (win2_2.rect t)).set ↔ _
  rw [View.set_slice_whole, Rect.mem_set_unit]
  exact Iff.rfl

/-- Entry (r, s) of the output lies in the tile written back at position (r / 1024, s / 1024, 1). -/
theorem tiles_cover (i : S8192x4096.Idx) :
    ∃ t : Fin cfg2.N, (cfg2.win 2).flush t = true ∧ i ∈ ((cfg2.win 2).blk t).view.set := by
  have h0 : (i 0).val < 8192 := idx2_lt0 i
  have h1 : (i 1).val < 4096 := idx2_lt1 i
  have hN : cfg2.N = 64 := N_2
  have hlt : 8 * ((i 0).val / 1024) + 2 * ((i 1).val / 1024) + 1 < cfg2.N := by rw [hN]; omega
  obtain ⟨-, -, -, -, e0, e1⟩ := blockIndex ⟨8 * ((i 0).val / 1024) + 2 * ((i 1).val / 1024) + 1, hlt⟩
  refine ⟨⟨8 * ((i 0).val / 1024) + 2 * ((i 1).val / 1024) + 1, hlt⟩, (flush2_2 _).mpr (by dsimp only; omega), ?_⟩
  rw [mem_tile]
  intro a
  match a with
  | ⟨0, _⟩ =>
    show win2_2.index _ (0 : Fin 2) * 1024 ≤ (i 0).val ∧ (i 0).val < win2_2.index _ (0 : Fin 2) * 1024 + 1024
    rw [e0]; dsimp only; omega
  | ⟨1, _⟩ =>
    show win2_2.index _ (1 : Fin 2) * 1024 ≤ (i 1).val ∧ (i 1).val < win2_2.index _ (1 : Fin 2) * 1024 + 1024
    rw [e1]; dsimp only; omega

/-! ## The output array after the region -/

theorem final2 (hs : StepSpec) (c : Dev nD) :
    ((dat2 (F := Ideal) V c).arrAt 2 cfg2.N : Vec Ideal S8192x4096 .f32) = mmT (M := 8192) (N := 4096) (lhs V c) (rhs V c) :=
  (dat2 (F := Ideal) V c).arrAt_eq_of_cover 2 (mmT (M := 8192) (N := 4096) (lhs V c) (rhs V c))
    (fun t hf => flushed_tile V hs c t hf) tiles_cover

end Cert.KernelIdeal.Val

end
-- ==== Proof.Value.KernelResult.lean ====
/-
  The idealized kernel's result array as the specification's function of the two arguments: the matrix-product
  region leaves in its output the product of what the two quantise-dequantise regions left, which are the
  specification's `qd` of the reshaped activations and of the weights.
-/
import proofs.«138616_j15023795602200_1_alg».proof.Proof.KernelIdeal.WholeValues
import proofs.«138616_j15023795602200_1_alg».proof.Proof.Value.QuantAt
import proofs.«138616_j15023795602200_1_alg».proof.Proof.Value.QuantFinal
import proofs.«138616_j15023795602200_1_alg».proof.Proof.Value.MatmulAt
import proofs.«138616_j15023795602200_1_alg».proof.Proof.Value.MatmulFinal

set_option maxRecDepth 16384

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen Cert.KernelIdeal.Run Cert.Spec

variable (m : (ℓ : Loc nD τ sig) → Buf (Elt Ideal) ℓ)

/-- The activations reshaped to 8192 rows. -/
abbrev acts (c : Dev nD) : Vec Ideal S8192x4096 .f32 :=
  shapeCast S8192x4096 (m ((c : Thread nD τ).loc main_arg0)) shapeCasts_S4x2048x4096_S8192x4096
/-- The weights. -/
abbrev wts (c : Dev nD) : Vec Ideal S4096x4096 .f32 := m ((c : Thread nD τ).loc main_arg1)

theorem left_eq (c : Dev nD) : lhs (V3 m) c = qd (R := 8192) (acts m c) := by
  show V3 m c main_v1 = _
  refine (V3_main_v1 m c).trans ((final0 (V1 m) quant0_apply c).trans ?_)
  show qd (R := 8192) (V1 m c main_v0) = _
  rw [V1_main_v0]

theorem right_eq (c : Dev nD) : rhs (V3 m) c = qd (R := 4096) (wts m c) := by
  show V3 m c main_v2 = _
  refine (V3_main_v2 m c).trans ((final1 (V2 m) quant1_apply c).trans ?_)
  show qd (R := 4096) (V2 m c main_arg1) = _
  rw [V2_main_arg1]

theorem kernel_result (c : Dev nD) :
    (V4 m c main_v3 : Vec Ideal S8192x4096 .f32) = result (acts m c) (wts m c) := by
  refine (V4_main_v3 m c).trans ((final2 (V3 m) ⟨mmZero_apply, mmStep_apply⟩ c).trans ?_)
  unfold result
  rw [left_eq, right_eq]

end Cert.KernelIdeal.Val

end
-- ==== Proof.Value.Reference.lean ====
/-
  The reference program's result as the specification's function of its two arguments: each of its two
  quantise-dequantise chains is `qd` (the activations first reshaped to 8192 rows), and its contraction is `mmT`.

  Each chain works on the array cut into groups of 32 along a row, so an entry is addressed by (row p, group g,
  place l), which is column 32 g + l of row p. The group's maximum magnitude is a fold of `max` from -∞ over the
  32 places; every later operation acts entry by entry, the scale being the same for all places of a group.
  Column q of a row is place q % 32 of group q / 32, and 32 (q / 32) + q % 32 = q.
-/
import proofs.«138616_j15023795602200_1_alg».proof.Proof.Gen.ReferenceIdeal.Run
import proofs.«138616_j15023795602200_1_alg».proof.Proof.Gen.ReferenceIdeal.Read
import proofs.«138616_j15023795602200_1_alg».proof.Proof.Value.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.ValueIdx Idealize.SL.Sem
open Cert.ReferenceIdeal Cert.ReferenceIdeal.Gen Cert.ReferenceIdeal.Read Cert.Spec

/-- The 32 entries of group `g` of row `p`. -/
abbrev grp {R : Nat} (x : (⟨2, ![R, 4096]⟩ : Shape).Idx → EReal) (p : Fin R) (g : Fin 128) : Fin 32 → EReal :=
  fun j => x (ix2 p (⟨32 * g.val + j.val, by have := g.isLt; have := j.isLt; omega⟩ : Fin 4096))

/-- The reduced index (p, g) with coordinate k put back on the last axis is (p, g, k). -/
theorem lift3 {R : Nat} (h : (⟨3, ![R, 128, 32]⟩ : Shape).Reduces [2] (⟨2, ![R, 128]⟩ : Shape)) (p : Fin R) (g : Fin 128)
    (k : Fin ((⟨3, ![R, 128, 32]⟩ : Shape).size 2)) : h.lift (ix2 p g) k = ix3 p g (⟨k.val, k.isLt⟩ : Fin 32) := by
  funext c; apply Fin.ext
  fin_cases c <;> rfl

/-! ## The activations -/

theorem redA : S8192x128x32.Reduces [2] S8192x128 := by decide

/-- Entry l of group g of row p, in the rows-of-4096 layout. -/
theorem idx1_at (p : Fin 8192) (g : Fin 128) (l : Fin 32) :
    idx_main_v1 (ix3 p g l) = ix2 p (⟨32 * g.val + l.val, by have := g.isLt; have := l.isLt; omega⟩ : Fin 4096) :=
  funext fun a => Fin.ext (by
    have := g.isLt; have := l.isLt
    match a with
    | ⟨0, _⟩ => show ((p.val * 128 + g.val) * 32 + l.val) / 4096 = p.val; omega
    | ⟨1, _⟩ => show ((p.val * 128 + g.val) * 32 + l.val) % 4096 = 32 * g.val + l.val; omega)

theorem idx10_at (p : Fin 8192) (g : Fin 128) (l : Fin 32) : idx_main_v10 (idx_main_v11 (ix3 p g l)) = ix2 p g :=
  funext fun a => Fin.ext (by match a with | ⟨0, _⟩ => rfl | ⟨1, _⟩ => rfl)

theorem idx42_at (p : Fin 8192) (g : Fin 128) (l : Fin 32) : idx_main_v42 (idx_main_v44 (ix3 p g l)) = ix2 p g :=
  funext fun a => Fin.ext (by match a with | ⟨0, _⟩ => rfl | ⟨1, _⟩ => rfl)

/-- Flattening the groups and cutting them again is the identity on indices. -/
theorem idx40_at (p : Fin 8192) (g : Fin 128) (l : Fin 32) : idx_main_v40 (idx_main_v41 (ix3 p g l)) = ix3 p g l :=
  funext fun a => Fin.ext (by
    have := g.isLt; have := l.isLt
    match a with
    | ⟨0, _⟩ => show ((((p.val * 128 + g.val) * 32 + l.val) / 4096) * 4096 + ((p.val * 128 + g.val) * 32 + l.val) % 4096) / 4096 = p.val; omega
    | ⟨1, _⟩ => show ((((p.val * 128 + g.val) * 32 + l.val) / 4096) * 4096 + ((p.val * 128 + g.val) * 32 + l.val) % 4096) / 32 % 128 = g.val; omega
    | ⟨2, _⟩ => show ((((p.val * 128 + g.val) * 32 + l.val) / 4096) * 4096 + ((p.val * 128 + g.val) * 32 + l.val) % 4096) % 32 = l.val; omega)

/-- Column q of a row lies in group q / 32 at place q % 32. -/
theorem idx46_at (p : Fin 8192) (q : Fin 4096) :
    idx_main_v46 (ix2 p q) = ix3 p (⟨q.val / 32, by have := q.isLt; omega⟩ : Fin 128) (⟨q.val % 32, by omega⟩ : Fin 32) :=
  funext fun a => Fin.ext (by
    have := q.isLt
    match a with
    | ⟨0, _⟩ => show (p.val * 4096 + q.val) / 4096 = p.val; omega
    | ⟨1, _⟩ => show (p.val * 4096 + q.val) / 32 % 128 = q.val / 32; omega
    | ⟨2, _⟩ => show (p.val * 4096 + q.val) % 32 = q.val % 32; omega)

/-- The max-reduce over a group is the fold of `max` from -∞ over the group's magnitudes. -/
theorem v3_at (x0 : (⟨S4x2048x4096, .f32⟩ : BufTy).Contents (Elt Ideal)) (p : Fin 8192) (g : Fin 128) :
    val_main_v3 (F := Ideal) x0 (ix2 p g) = gmax (grp (val_main_v0 (F := Ideal) x0) p g) := by
  unfold val_main_v3
  refine (Host.reduce_eq_fold_single (α := Ideal .f32) (FloatOps.maximumf (F := Ideal) (φ := .f32)) (val_main_v2 (F := Ideal) x0)
    (val_main_cst (F := Ideal)) reducesTo_S8192x128x32_S8192x128_d2 redA h_S_ (ix2 p g)).trans ?_
  have hf : (val_main_v2 (F := Ideal) x0 ∘ redA.lift (ix2 p g))
      = fun j : Fin 32 => mag (grp (val_main_v0 (F := Ideal) x0) p g j) :=
    funext fun k => by
      show val_main_v2 (F := Ideal) x0 (redA.lift (ix2 p g) k) = _
      rw [lift3 redA p g k, val_main_v2_apply, val_main_v1_apply, idx1_at]
      rfl
  exact congrArg (fun f => Finset.fold max (lit 0xFF800000#32) f (Finset.univ : Finset (Fin 32))) hf

/-- The group's scale. -/
theorem v7_at (x0 : (⟨S4x2048x4096, .f32⟩ : BufTy).Contents (Elt Ideal)) (p : Fin 8192) (g : Fin 128) :
    val_main_v7 (F := Ideal) x0 (ix2 p g) = scaleOf (gmax (grp (val_main_v0 (F := Ideal) x0) p g)) := by
  rw [val_main_v7_apply, val_main_v5_apply, v3_at, val_main_v4_apply, val_main_cst_0_apply, val_main_v6_apply, val_main_cst_1_apply]
  rfl

/-- The entry divided by the floored scale and clipped. -/
theorem v13_at (x0 : (⟨S4x2048x4096, .f32⟩ : BufTy).Contents (Elt Ideal)) (p : Fin 8192) (g : Fin 128) (l : Fin 32) :
    val_main_v13 (F := Ideal) x0 (ix3 p g l)
      = clipq (scaleOf (gmax (grp (val_main_v0 (F := Ideal) x0) p g))) (grp (val_main_v0 (F := Ideal) x0) p g l) := by
  rw [val_main_v13_apply, val_main_call0_v4_apply, val_main_call0_v3_apply, val_main_cst_4_apply, val_main_call0_v2_apply,
    val_main_call0_v1_apply, val_main_call0_v0_apply, val_main_cst_3_apply, val_main_v12_apply, val_main_v1_apply, idx1_at,
    val_main_v11_apply, val_main_v10_apply, idx10_at, val_main_v9_apply, v7_at, val_main_v8_apply, val_main_cst_2_apply]
  rfl

/-- The sign times the level. -/
theorem v39_at (x0 : (⟨S4x2048x4096, .f32⟩ : BufTy).Contents (Elt Ideal)) (p : Fin 8192) (g : Fin 128) (l : Fin 32) :
    val_main_v39 (F := Ideal) x0 (ix3 p g l)
      = sgn (clipq (scaleOf (gmax (grp (val_main_v0 (F := Ideal) x0) p g))) (grp (val_main_v0 (F := Ideal) x0) p g l))
        * level (mag (clipq (scaleOf (gmax (grp (val_main_v0 (F := Ideal) x0) p g))) (grp (val_main_v0 (F := Ideal) x0) p g l))) := by
  rw [val_main_v39_apply, val_main_v16_apply, val_main_v15_apply, val_main_v14_apply, val_main_cst_5_apply,
    val_main_call1_v0_apply, val_main_cst_6_apply, val_main_call1_v1_apply, val_main_cst_7_apply,
    val_main_v38_apply, val_main_v19_apply, val_main_v18_apply, val_main_cst_8_apply, val_main_call8_v0_apply, val_main_cst_22_apply,
    val_main_v37_apply, val_main_v21_apply, val_main_v20_apply, val_main_cst_9_apply, val_main_call7_v0_apply, val_main_cst_21_apply,
    val_main_v36_apply, val_main_v23_apply, val_main_v22_apply, val_main_cst_10_apply, val_main_call6_v0_apply, val_main_cst_20_apply,
    val_main_v35_apply, val_main_v25_apply, val_main_v24_apply, val_main_cst_11_apply, val_main_call5_v0_apply, val_main_cst_19_apply,
    val_main_v34_apply, val_main_v27_apply, val_main_v26_apply, val_main_cst_12_apply, val_main_call4_v0_apply, val_main_cst_18_apply,
    val_main_v33_apply, val_main_v29_apply, val_main_v28_apply, val_main_cst_13_apply, val_main_call3_v0_apply, val_main_cst_17_apply,
    val_main_v32_apply, val_main_v31_apply, val_main_v30_apply, val_main_cst_14_apply, val_main_call2_v0_apply, val_main_cst_15_apply,
    val_main_call2_v1_apply, val_main_cst_16_apply, val_main_v17_apply, v13_at]
  rfl

/-- The entry quantised and dequantised. -/
theorem v45_at (x0 : (⟨S4x2048x4096, .f32⟩ : BufTy).Contents (Elt Ideal)) (p : Fin 8192) (g : Fin 128) (l : Fin 32) :
    val_main_v45 (F := Ideal) x0 (ix3 p g l)
      = qdq (scaleOf (gmax (grp (val_main_v0 (F := Ideal) x0) p g))) (grp (val_main_v0 (F := Ideal) x0) p g l) := by
  rw [val_main_v45_apply, val_main_v43_apply, val_main_v41_apply, val_main_v40_apply, idx40_at, v39_at,
    val_main_v44_apply, val_main_v42_apply, idx42_at, v7_at]
  rfl

/-- The activations' chain. -/
theorem ref46 (x0 : (⟨S4x2048x4096, .f32⟩ : BufTy).Contents (Elt Ideal)) :
    (val_main_v46 (F := Ideal) x0 : S8192x4096.Idx → EReal) = qd (R := 8192) (val_main_v0 (F := Ideal) x0) := by
  funext i
  obtain ⟨p, q, rfl⟩ : ∃ (p : Fin 8192) (q : Fin 4096), i = ix2 p q := ⟨i 0, i 1, eq_ix2 i⟩
  rw [val_main_v46_apply, idx46_at, v45_at]
  have e : (⟨32 * (q.val / 32) + q.val % 32, by have := q.isLt; omega⟩ : Fin 4096) = q := Fin.ext (by show 32 * (q.val / 32) + q.val % 32 = q.val; omega)
  show qdq _ (val_main_v0 (F := Ideal) x0 (ix2 p (⟨32 * (q.val / 32) + q.val % 32, _⟩ : Fin 4096))) = qdq _ (val_main_v0 (F := Ideal) x0 (ix2 p q))
  rw [e]
  rfl

/-! ## The weights -/

theorem redW : S4096x128x32.Reduces [2] S4096x128 := by decide

/-- Entry l of group g of row p, in the rows-of-4096 layout. -/
theorem idx47_at (p : Fin 4096) (g : Fin 128) (l : Fin 32) :
    idx_main_v47 (ix3 p g l) = ix2 p (⟨32 * g.val + l.val, by have := g.isLt; have := l.isLt; omega⟩ : Fin 4096) :=
  funext fun a => Fin.ext (by
    have := g.isLt; have := l.isLt
    match a with
    | ⟨0, _⟩ => show ((p.val * 128 + g.val) * 32 + l.val) / 4096 = p.val; omega
    | ⟨1, _⟩ => show ((p.val * 128 + g.val) * 32 + l.val) % 4096 = 32 * g.val + l.val; omega)

theorem idx56_at (p : Fin 4096) (g : Fin 128) (l : Fin 32) : idx_main_v56 (idx_main_v57 (ix3 p g l)) = ix2 p g :=
  funext fun a => Fin.ext (by match a with | ⟨0, _⟩ => rfl | ⟨1, _⟩ => rfl)

theorem idx88_at (p : Fin 4096) (g : Fin 128) (l : Fin 32) : idx_main_v88 (idx_main_v90 (ix3 p g l)) = ix2 p g :=
  funext fun a => Fin.ext (by match a with | ⟨0, _⟩ => rfl | ⟨1, _⟩ => rfl)

/-- Flattening the groups and cutting them again is the identity on indices. -/
theorem idx86_at (p : Fin 4096) (g : Fin 128) (l : Fin 32) : idx_main_v86 (idx_main_v87 (ix3 p g l)) = ix3 p g l :=
  funext fun a => Fin.ext (by
    have := g.isLt; have := l.isLt
    match a with
    | ⟨0, _⟩ => show ((((p.val * 128 + g.val) * 32 + l.val) / 4096) * 4096 + ((p.val * 128 + g.val) * 32 + l.val) % 4096) / 4096 = p.val; omega
    | ⟨1, _⟩ => show ((((p.val * 128 + g.val) * 32 + l.val) / 4096) * 4096 + ((p.val * 128 + g.val) * 32 + l.val) % 4096) / 32 % 128 = g.val; omega
    | ⟨2, _⟩ => show ((((p.val * 128 + g.val) * 32 + l.val) / 4096) * 4096 + ((p.val * 128 + g.val) * 32 + l.val) % 4096) % 32 = l.val; omega)

/-- Column q of a row lies in group q / 32 at place q % 32. -/
theorem idx92_at (p : Fin 4096) (q : Fin 4096) :
    idx_main_v92 (ix2 p q) = ix3 p (⟨q.val / 32, by have := q.isLt; omega⟩ : Fin 128) (⟨q.val % 32, by omega⟩ : Fin 32) :=
  funext fun a => Fin.ext (by
    have := q.isLt
    match a with
    | ⟨0, _⟩ => show (p.val * 4096 + q.val) / 4096 = p.val; omega
    | ⟨1, _⟩ => show (p.val * 4096 + q.val) / 32 % 128 = q.val / 32; omega
    | ⟨2, _⟩ => show (p.val * 4096 + q.val) % 32 = q.val % 32; omega)

/-- The max-reduce over a group is the fold of `max` from -∞ over the group's magnitudes. -/
theorem v49_at (x1 : (⟨S4096x4096, .f32⟩ : BufTy).Contents (Elt Ideal)) (p : Fin 4096) (g : Fin 128) :
    val_main_v49 (F := Ideal) x1 (ix2 p g) = gmax (grp x1 p g) := by
  unfold val_main_v49
  refine (Host.reduce_eq_fold_single (α := Ideal .f32) (FloatOps.maximumf (F := Ideal) (φ := .f32)) (val_main_v48 (F := Ideal) x1)
    (val_main_cst_23 (F := Ideal)) reducesTo_S4096x128x32_S4096x128_d2 redW h_S_ (ix2 p g)).trans ?_
  have hf : (val_main_v48 (F := Ideal) x1 ∘ redW.lift (ix2 p g))
      = fun j : Fin 32 => mag (grp x1 p g j) :=
    funext fun k => by
      show val_main_v48 (F := Ideal) x1 (redW.lift (ix2 p g) k) = _
      rw [lift3 redW p g k, val_main_v48_apply, val_main_v47_apply, idx47_at]
      rfl
  exact congrArg (fun f => Finset.fold max (lit 0xFF800000#32) f (Finset.univ : Finset (Fin 32))) hf

/-- The group's scale. -/
theorem v53_at (x1 : (⟨S4096x4096, .f32⟩ : BufTy).Contents (Elt Ideal)) (p : Fin 4096) (g : Fin 128) :
    val_main_v53 (F := Ideal) x1 (ix2 p g) = scaleOf (gmax (grp x1 p g)) := by
  rw [val_main_v53_apply, val_main_v51_apply, v49_at, val_main_v50_apply, val_main_cst_24_apply, val_main_v52_apply, val_main_cst_25_apply]
  rfl

/-- The entry divided by the floored scale and clipped. -/
theorem v59_at (x1 : (⟨S4096x4096, .f32⟩ : BufTy).Contents (Elt Ideal)) (p : Fin 4096) (g : Fin 128) (l : Fin 32) :
    val_main_v59 (F := Ideal) x1 (ix3 p g l)
      = clipq (scaleOf (gmax (grp x1 p g))) (grp x1 p g l) := by
  rw [val_main_v59_apply, val_main_call9_v4_apply, val_main_call9_v3_apply, val_main_cst_28_apply, val_main_call9_v2_apply,
    val_main_call9_v1_apply, val_main_call9_v0_apply, val_main_cst_27_apply, val_main_v58_apply, val_main_v47_apply, idx47_at,
    val_main_v57_apply, val_main_v56_apply, idx56_at, val_main_v55_apply, v53_at, val_main_v54_apply, val_main_cst_26_apply]
  rfl

/-- The sign times the level. -/
theorem v85_at (x1 : (⟨S4096x4096, .f32⟩ : BufTy).Contents (Elt Ideal)) (p : Fin 4096) (g : Fin 128) (l : Fin 32) :
    val_main_v85 (F := Ideal) x1 (ix3 p g l)
      = sgn (clipq (scaleOf (gmax (grp x1 p g))) (grp x1 p g l))
        * level (mag (clipq (scaleOf (gmax (grp x1 p g))) (grp x1 p g l))) := by
  rw [val_main_v85_apply, val_main_v62_apply, val_main_v61_apply, val_main_v60_apply, val_main_cst_29_apply,
    val_main_call10_v0_apply, val_main_cst_30_apply, val_main_call10_v1_apply, val_main_cst_31_apply,
    val_main_v84_apply, val_main_v65_apply, val_main_v64_apply, val_main_cst_32_apply, val_main_call17_v0_apply, val_main_cst_46_apply,
    val_main_v83_apply, val_main_v67_apply, val_main_v66_apply, val_main_cst_33_apply, val_main_call16_v0_apply, val_main_cst_45_apply,
    val_main_v82_apply, val_main_v69_apply, val_main_v68_apply, val_main_cst_34_apply, val_main_call15_v0_apply, val_main_cst_44_apply,
    val_main_v81_apply, val_main_v71_apply, val_main_v70_apply, val_main_cst_35_apply, val_main_call14_v0_apply, val_main_cst_43_apply,
    val_main_v80_apply, val_main_v73_apply, val_main_v72_apply, val_main_cst_36_apply, val_main_call13_v0_apply, val_main_cst_42_apply,
    val_main_v79_apply, val_main_v75_apply, val_main_v74_apply, val_main_cst_37_apply, val_main_call12_v0_apply, val_main_cst_41_apply,
    val_main_v78_apply, val_main_v77_apply, val_main_v76_apply, val_main_cst_38_apply, val_main_call11_v0_apply, val_main_cst_39_apply,
    val_main_call11_v1_apply, val_main_cst_40_apply, val_main_v63_apply, v59_at]
  rfl

/-- The entry quantised and dequantised. -/
theorem v91_at (x1 : (⟨S4096x4096, .f32⟩ : BufTy).Contents (Elt Ideal)) (p : Fin 4096) (g : Fin 128) (l : Fin 32) :
    val_main_v91 (F := Ideal) x1 (ix3 p g l)
      = qdq (scaleOf (gmax (grp x1 p g))) (grp x1 p g l) := by
  rw [val_main_v91_apply, val_main_v89_apply, val_main_v87_apply, val_main_v86_apply, idx86_at, v85_at,
    val_main_v90_apply, val_main_v88_apply, idx88_at, v53_at]
  rfl

/-- The weights' chain. -/
theorem ref92 (x1 : (⟨S4096x4096, .f32⟩ : BufTy).Contents (Elt Ideal)) :
    (val_main_v92 (F := Ideal) x1 : S4096x4096.Idx → EReal) = qd (R := 4096) x1 := by
  funext i
  obtain ⟨p, q, rfl⟩ : ∃ (p : Fin 4096) (q : Fin 4096), i = ix2 p q := ⟨i 0, i 1, eq_ix2 i⟩
  rw [val_main_v92_apply, idx92_at, v91_at]
  have e : (⟨32 * (q.val / 32) + q.val % 32, by have := q.isLt; omega⟩ : Fin 4096) = q := Fin.ext (by show 32 * (q.val / 32) + q.val % 32 = q.val; omega)
  show qdq _ (x1 (ix2 p (⟨32 * (q.val / 32) + q.val % 32, _⟩ : Fin 4096))) = qdq _ (x1 (ix2 p q))
  rw [e]
  rfl

/-! ## The contraction -/

/-- The contraction of the two. -/
theorem ref93 (x0 : (⟨S4x2048x4096, .f32⟩ : BufTy).Contents (Elt Ideal)) (x1 : (⟨S4096x4096, .f32⟩ : BufTy).Contents (Elt Ideal)) :
    (val_main_v93 (F := Ideal) x0 x1 : S8192x4096.Idx → EReal) = result (val_main_v0 (F := Ideal) x0) x1 := by
  funext i
  have el : ∀ k : Fin 4096, lidx_main_v93 i k = ix2 (i 0) k := fun k =>
    funext fun a => Fin.ext (by match a with | ⟨0, _⟩ => rfl | ⟨1, _⟩ => rfl)
  have er : ∀ k : Fin 4096, ridx_main_v93 i k = ix2 (i 1) k := fun k =>
    funext fun a => Fin.ext (by match a with | ⟨0, _⟩ => rfl | ⟨1, _⟩ => rfl)
  rw [val_main_v93_apply, ref46, ref92]
  show _ = ∑ k : Fin 4096, qd (R := 8192) (val_main_v0 (F := Ideal) x0) (ix2 (i 0) k) * qd (R := 4096) x1 (ix2 (i 1) k)
  exact Finset.sum_congr rfl fun k _ => by rw [el k, er k]; rfl

end Cert.ReferenceIdeal.RefValue

end
-- ==== Proof.lean ====
/-
  The certificate. Both programs compute, on activations x (4 × 2048 × 4096, read as 8192 rows) and weights w
  (4096 × 4096): every group of 32 consecutive entries of a row is quantised to eight magnitude levels at the group's
  scale and dequantised, and the result is the product of the treated x with the transpose of the treated w, reshaped
  to 4 × 2048 × 4096. The kernel does the two treatments tile by tile in two pipelined regions and the product in a
  third, accumulating the two halves of each contraction in scratch memory; over the extended reals the order of a sum
  does not matter, a change of float format is the identity, and the two programs' literals are the same words, so the
  results agree entry by entry. No finiteness is used. The three frames: each kernel program runs its five items in
  turn without a fault and writes neither argument; the reference is a straight line of host operations.
-/
import proofs.«138616_j15023795602200_1_alg».proof.Defs
import proofs.«138616_j15023795602200_1_alg».proof.Proof.Gen.Kernel
import proofs.«138616_j15023795602200_1_alg».proof.Proof.Gen.KernelIdeal
import proofs.«138616_j15023795602200_1_alg».proof.Proof.Gen.ReferenceIdeal
import proofs.«138616_j15023795602200_1_alg».proof.Proof.Gen.Pre_finite_inputs
import proofs.«138616_j15023795602200_1_alg».proof.Proof.Gen.ReferenceIdeal.Run
import proofs.«138616_j15023795602200_1_alg».proof.Proof.Gen.ReferenceIdeal.Read
import proofs.«138616_j15023795602200_1_alg».proof.Proof.Kernel.WholeValues
import proofs.«138616_j15023795602200_1_alg».proof.Proof.KernelIdeal.WholeValues
import proofs.«138616_j15023795602200_1_alg».proof.Proof.Value.KernelResult
import proofs.«138616_j15023795602200_1_alg».proof.Proof.Value.Reference
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Run.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The reference's result buffer: the reshape of the specification's function of the reshaped activations and the weights. -/
theorem ref_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v94 m c
      = shapeCast Cert.ReferenceIdeal.S4x2048x4096
          (Cert.Spec.result
            (shapeCast Cert.ReferenceIdeal.S8192x4096 (m ((c.tc : Thread Cert.ReferenceIdeal.nD Cert.ReferenceIdeal.τ).loc Cert.ReferenceIdeal.main_arg0)) Cert.ReferenceIdeal.Facts₀.shapeCasts_S4x2048x4096_S8192x4096)
            (m ((c.tc : Thread Cert.ReferenceIdeal.nD Cert.ReferenceIdeal.τ).loc Cert.ReferenceIdeal.main_arg1)))
          Cert.ReferenceIdeal.Facts₀.shapeCasts_S8192x4096_S4x2048x4096 := by
  rw [Cert.ReferenceIdeal.Read.val_main_v94_eq]
  unfold Cert.ReferenceIdeal.Read.val_main_v94
  rw [Cert.ReferenceIdeal.RefValue.ref93]
  rfl

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => shapeCast Cert.KernelIdeal.S4x2048x4096 (Cert.Spec.result (Cert.KernelIdeal.Val.acts m c) (Cert.KernelIdeal.Val.wts m c)) Cert.KernelIdeal.Facts₀.shapeCasts_S8192x4096_S4x2048x4096, ?_, ?_⟩
  · refine (θ_run Cert.KernelIdeal.defs _ _).mono (fun _ h c => ⟨(h c).1.trans ?_, (h c).2⟩) (Cert.KernelIdeal.Run.run_result (F := Ideal) m ρ)
    rw [Cert.KernelIdeal.Val.kernel_result]
  · refine (θ_run Cert.ReferenceIdeal.defs _ _).mono (fun _ h c => ⟨(h c).1.trans ?_, (h c).2⟩) (Cert.ReferenceIdeal.Value.run (F := Ideal) m' ρ')
    rw [ref_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
